-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x320 : Shape := ⟨2, ![200000, 320]⟩
abbrev S10x320 : Shape := ⟨2, ![10, 320]⟩
abbrev S5x10 : Shape := ⟨2, ![5, 10]⟩
abbrev S5 : Shape := ⟨1, ![5]⟩
abbrev S_ : Shape := ⟨0, ![]⟩

class Facts : Prop where
  bcast_S_S200000x320 : S_.BroadcastsInDim S200000x320 (![] : Fin 0 → Fin S200000x320.rank)
  reducesTo_S200000x320_S_d0_1 : S200000x320.ReducesTo [0, 1] S_
  h_S_ : 0 < S_.numel
  bcast_S_S10x320 : S_.BroadcastsInDim S10x320 (![] : Fin 0 → Fin S10x320.rank)
  reducesTo_S10x320_S_d0_1 : S10x320.ReducesTo [0, 1] S_
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  main_v18

def fn {F : FTy → Type} [FloatOps F] (main_arg0 : FVec F S200000x320 .f32) (main_arg1 : FVec F S10x320 .f32) (main_arg2 : FVec F S5x10 .f32) (main_arg3 : FVec F S5 .f32) : IVec S_ 1 :=
  let main_v0 : FVec F S200000x320 .f32 := Host.absf main_arg0
  let main_cst : FVec F S_ .f32 := constant S_ .f32 0x7F800000#32
  let main_v1 : FVec F S200000x320 .f32 := broadcastInDim S200000x320 ![] bcast_S_S200000x320 main_cst
  let main_v2 : IVec S200000x320 1 := cmpf .olt main_v0 main_v1
  let main_c : IVec S_ 1 := constantI S_ 1 1#1
  let main_v3 : IVec S_ 1 := (fun x v => Host.reduce IntOp.andi x v reducesTo_S200000x320_S_d0_1 h_S_) main_v2 main_c
  let main_v4 : FVec F S10x320 .f32 := Host.absf main_arg1
  let main_cst_0 : FVec F S_ .f32 := constant S_ .f32 0x7F800000#32
  let main_v5 : FVec F S10x320 .f32 := broadcastInDim S10x320 ![] bcast_S_S10x320 main_cst_0
  let main_v6 : IVec S10x320 1 := cmpf .olt main_v4 main_v5
  let main_c_1 : IVec S_ 1 := constantI S_ 1 1#1
  let main_v7 : IVec S_ 1 := (fun x v => Host.reduce IntOp.andi x v reducesTo_S10x320_S_d0_1 h_S_) main_v6 main_c_1
  let main_v8 : IVec S_ 1 := andi main_v3 main_v7
  let main_v9 : FVec F S5x10 .f32 := Host.absf main_arg2
  let main_cst_2 : FVec F S_ .f32 := constant S_ .f32 0x7F800000#32
  let main_v10 : FVec F S5x10 .f32 := broadcastInDim S5x10 ![] bcast_S_S5x10 main_cst_2
  let main_v11 : IVec S5x10 1 := cmpf .olt main_v9 main_v10
  let main_c_3 : IVec S_ 1 := constantI S_ 1 1#1
  let main_v12 : IVec S_ 1 := (fun x v => Host.reduce IntOp.andi x v reducesTo_S5x10_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_v13 main_v16
-- ==== Kernel.lean ====
abbrev S200000x320 : Shape := ⟨2, ![200000, 320]⟩
abbrev S10x320 : Shape := ⟨2, ![10, 320]⟩
abbrev S5x10 : Shape := ⟨2, ![5, 10]⟩
abbrev S5 : Shape := ⟨1, ![5]⟩
abbrev S200000x5 : Shape := ⟨2, ![200000, 5]⟩
abbrev S8000x320 : Shape := ⟨2, ![8000, 320]⟩
abbrev S8000x5 : Shape := ⟨2, ![8000, 5]⟩
abbrev S320x10 : Shape := ⟨2, ![320, 10]⟩
abbrev S8000x10 : Shape := ⟨2, ![8000, 10]⟩
abbrev S10x5 : Shape := ⟨2, ![10, 5]⟩
abbrev S1x5 : Shape := ⟨2, ![1, 5]⟩
abbrev S_ : Shape := ⟨0, ![]⟩
abbrev S208000x5 : Shape := ⟨2, ![208000, 5]⟩
abbrev S200000x25 : Shape := ⟨2, ![200000, 25]⟩
abbrev S8000x25 : Shape := ⟨2, ![8000, 25]⟩
abbrev S4x5 : Shape := ⟨2, ![4, 5]⟩
abbrev S8004x5 : Shape := ⟨2, ![8004, 5]⟩

abbrev nBuf : Space → Nat
  | .hbm => 9
  | .vmem => 13
  | .smem => 0
  | _ => 0

abbrev bufTy : (tb : Table) → Fin (tcTables nBuf tb) → BufTy
  | .hbm, ⟨0, _⟩ => ⟨S200000x320, .f32⟩
  | .hbm, ⟨1, _⟩ => ⟨S10x320, .f32⟩
  | .hbm, ⟨2, _⟩ => ⟨S5x10, .f32⟩
  | .hbm, ⟨3, _⟩ => ⟨S5, .f32⟩
  | .hbm, ⟨4, _⟩ => ⟨S200000x5, .f32⟩
  | .hbm, ⟨5, _⟩ => ⟨S_, .i32⟩
  | .hbm, ⟨6, _⟩ => ⟨S_, .f32⟩
  | .hbm, ⟨7, _⟩ => ⟨S208000x5, .f32⟩
  | .hbm, ⟨8, _⟩ => ⟨S200000x25, .f32⟩
  | .local _ .vmem, ⟨0, _⟩ => ⟨S8000x320, .f32⟩
  | .local _ .vmem, ⟨1, _⟩ => ⟨S8000x320, .f32⟩
  | .local _ .vmem, ⟨2, _⟩ => ⟨S10x320, .f32⟩
  | .local _ .vmem, ⟨3, _⟩ => ⟨S5x10, .f32⟩
  | .local _ .vmem, ⟨4, _⟩ => ⟨S5, .f32⟩
  | .local _ .vmem, ⟨5, _⟩ => ⟨S8000x5, .f32⟩
  | .local _ .vmem, ⟨6, _⟩ => ⟨S8000x5, .f32⟩
  | .local _ .vmem, ⟨7, _⟩ => ⟨S8000x5, .f32⟩
  | .local _ .vmem, ⟨8, _⟩ => ⟨S8000x5, .f32⟩
  | .local _ .vmem, ⟨9, _⟩ => ⟨S8000x5, .f32⟩
  | .local _ .vmem, ⟨10, _⟩ => ⟨S8000x5, .f32⟩
  | .local _ .vmem, ⟨11, _⟩ => ⟨S8000x25, .f32⟩
  | .local _ .vmem, ⟨12, _⟩ => ⟨S8000x25, .f32⟩
  | _, _ => ⟨S200000x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x25 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x320_S8000x320_0_0 : ∀ a, (![0, 0] : Fin 2 → Nat) a + S8000x320.size a ≤ S8000x320.size a
  h_S8000x320 : 0 < S8000x320.numel
  bitsLt_bf16_f32 : FTy.bits .bf16 < FTy.bits .f32
  inb_S10x320_S10x320_0_0 : ∀ a, (![0, 0] : Fin 2 → Nat) a + S10x320.size a ≤ S10x320.size a
  h_S10x320 : 0 < S10x320.numel
  transposes_S10x320_p1_0_S320x10 : S10x320.Transposes [1, 0] S320x10
  inb_S5x10_S5x10_0_0 : ∀ a, (![0, 0] : Fin 2 → Nat) a + S5x10.size a ≤ S5x10.size a
  h_S5x10 : 0 < S5x10.numel
  transposes_S5x10_p1_0_S10x5 : S5x10.Transposes [1, 0] S10x5
  inb_S5_S5_0 : ∀ a, (![0] : Fin 1 → Nat) a + S5.size a ≤ S5.size a
  h_S5 : 0 < S5.numel
  shapeCasts_S5_S1x5 : S5.ShapeCasts S1x5
  broadcasts_S1x5_S8000x5 : S1x5.Broadcasts S8000x5
  inb_S8000x5_S8000x5_0_0 : ∀ a, (![0, 0] : Fin 2 → Nat) a + S8000x5.size a ≤ S8000x5.size a
  h_S8000x5 : 0 < S8000x5.numel
  pads_S200000x5_S208000x5_279980_000 : S200000x5.Pads (![2, 0] : Fin 2 → Nat) ![7998, 0] ![0, 0] S208000x5
  h_S_ : 0 < S_.numel
  shapeCasts_S8000x5_S8000x5 : S8000x5.ShapeCasts S8000x5
  inb_S8000x5_S4x5_0_0 : ∀ a, (![0, 0] : Fin 2 → Nat) a + S4x5.size a ≤ S8000x5.size a
  h_S4x5 : 0 < S4x5.numel
  shapeCasts_S4x5_S4x5 : S4x5.ShapeCasts S4x5
  concatenates_S8000x5_S4x5_S8004x5_d0 : Shape.Concatenates [S8000x5, S4x5] S8004x5 0
  slices_S8004x5_o0_0_S8000x5 : S8004x5.Slices ![0, 0] S8000x5
  slices_S8004x5_o1_0_S8000x5 : S8004x5.Slices ![1, 0] S8000x5
  slices_S8004x5_o2_0_S8000x5 : S8004x5.Slices ![2, 0] S8000x5
  slices_S8004x5_o3_0_S8000x5 : S8004x5.Slices ![3, 0] S8000x5
  slices_S8004x5_o4_0_S8000x5 : S8004x5.Slices ![4, 0] S8000x5
  concatenates_S8000x5_S8000x5_S8000x5_S8000x5_S8000x5_S8000x25_d1 : Shape.Concatenates [S8000x5, S8000x5, S8000x5, S8000x5, S8000x5] S8000x25 1
  inb_S8000x25_S8000x25_0_0 : ∀ a, (![0, 0] : Fin 2 → Nat) a + S8000x25.size a ≤ S8000x25.size a
  h_S8000x25 : 0 < S8000x25.numel
  dot_S8000x320_S320x10_S8000x10_1_0_0_1_n_n_wf : DotDims.WF S8000x320 S320x10 S8000x10 [1] [0] [0] [1] [] []
  dot_S8000x10_S10x5_S8000x5_1_0_0_1_n_n_wf : DotDims.WF S8000x10 S10x5 S8000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x320.size a ≤ S200000x320.size a
  hwx0_0 : ∀ i : grid0.Coords, EltTy.bits .f32 = 32 ∨ (Rect.block (s := S200000x320) S8000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x320.size a ≤ S10x320.size a
  hwx0_1 : ∀ i : grid0.Coords, EltTy.bits .f32 = 32 ∨ (Rect.block (s := S10x320) S10x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x10.size a ≤ S5x10.size a
  hwx0_2 : ∀ i : grid0.Coords, EltTy.bits .f32 = 32 ∨ (Rect.block (s := S5x10) S5x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5.size a ≤ S5.size a
  hwx0_3 : ∀ i : grid0.Coords, EltTy.bits .f32 = 32 ∨ (Rect.block (s := S5) S5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x5.size a ≤ S200000x5.size a
  hwx0_4 : ∀ i : grid0.Coords, EltTy.bits .f32 = 32 ∨ (Rect.block (s := S200000x5) S8000x5.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x5.size a ≤ S208000x5.size a
  hwx1_0 : ∀ i : grid1.Coords, EltTy.bits .f32 = 32 ∨ (Rect.block (s := S208000x5) S8000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x5.size a ≤ S208000x5.size a
  hwx1_1 : ∀ i : grid1.Coords, EltTy.bits .f32 = 32 ∨ (Rect.block (s := S208000x5) S8000x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x25.size a ≤ S200000x25.size a
  hwx1_2 : ∀ i : grid1.Coords, EltTy.bits .f32 = 32 ∨ (Rect.block (s := S200000x25) S8000x25.size (cc1_transform_2 i) (hinb1_2 i)).WholeWords (EltTy.packing .f32)

variable [Facts₀]

def dot_S8000x320_S320x10_S8000x10_1_0_0_1_n_n : DotDims S8000x320 S320x10 S8000x10 where
  lhsContracting := [1]
  rhsContracting := [0]
  lhsNonContracting := [0]
  rhsNonContracting := [1]
  lhsBatch := []
  rhsBatch := []
  wf := dot_S8000x320_S320x10_S8000x10_1_0_0_1_n_n_wf
def dot_S8000x10_S10x5_S8000x5_1_0_0_1_n_n : DotDims S8000x10 S10x5 S8000x5 where
  lhsContracting := [1]
  rhsContracting := [0]
  lhsNonContracting := [0]
  rhsNonContracting := [1]
  lhsBatch := []
  rhsBatch := []
  wf := dot_S8000x10_S10x5_S8000x5_1_0_0_1_n_n_wf

abbrev win0_0 : Pipeline.Window sig grid0 :=
  Pipeline.Window.ofSpec (Memref.whole main_arg0) S8000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8000x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S8000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8000x25.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x320 : Shape := ⟨2, ![200000, 320]⟩
abbrev S10x320 : Shape := ⟨2, ![10, 320]⟩
abbrev S5x10 : Shape := ⟨2, ![5, 10]⟩
abbrev S5 : Shape := ⟨1, ![5]⟩
abbrev S320x10 : Shape := ⟨2, ![320, 10]⟩
abbrev S200000x10 : Shape := ⟨2, ![200000, 10]⟩
abbrev S_ : Shape := ⟨0, ![]⟩
abbrev S10x5 : Shape := ⟨2, ![10, 5]⟩
abbrev S200000x5 : Shape := ⟨2, ![200000, 5]⟩
abbrev S1x5 : Shape := ⟨2, ![1, 5]⟩
abbrev S200004x5 : Shape := ⟨2, ![200004, 5]⟩
abbrev S200000x1x5 : Shape := ⟨3, ![200000, 1, 5]⟩
abbrev S200000x5x5 : Shape := ⟨3, ![200000, 5, 5]⟩
abbrev S200000x25 : Shape := ⟨2, ![200000, 25]⟩

abbrev nBuf : Space → Nat
  | .hbm => 32
  | .vmem => 0
  | .smem => 0
  | _ => 0

abbrev bufTy : (tb : Table) → Fin (tcTables nBuf tb) → BufTy
  | .hbm, ⟨0, _⟩ => ⟨S200000x320, .f32⟩
  | .hbm, ⟨1, _⟩ => ⟨S10x320, .f32⟩
  | .hbm, ⟨2, _⟩ => ⟨S5x10, .f32⟩
  | .hbm, ⟨3, _⟩ => ⟨S5, .f32⟩
  | .hbm, ⟨4, _⟩ => ⟨S320x10, .f32⟩
  | .hbm, ⟨5, _⟩ => ⟨S200000x10, .f32⟩
  | .hbm, ⟨6, _⟩ => ⟨S_, .f32⟩
  | .hbm, ⟨7, _⟩ => ⟨S200000x10, .f32⟩
  | .hbm, ⟨8, _⟩ => ⟨S200000x10, .f32⟩
  | .hbm, ⟨9, _⟩ => ⟨S10x5, .f32⟩
  | .hbm, ⟨10, _⟩ => ⟨S200000x5, .f32⟩
  | .hbm, ⟨11, _⟩ => ⟨S1x5, .f32⟩
  | .hbm, ⟨12, _⟩ => ⟨S200000x5, .f32⟩
  | .hbm, ⟨13, _⟩ => ⟨S200000x5, .f32⟩
  | .hbm, ⟨14, _⟩ => ⟨S_, .f32⟩
  | .hbm, ⟨15, _⟩ => ⟨S200000x5, .f32⟩
  | .hbm, ⟨16, _⟩ => ⟨S200000x5, .f32⟩
  | .hbm, ⟨17, _⟩ => ⟨S_, .i32⟩
  | .hbm, ⟨18, _⟩ => ⟨S_, .f32⟩
  | .hbm, ⟨19, _⟩ => ⟨S200004x5, .f32⟩
  | .hbm, ⟨20, _⟩ => ⟨S200000x5, .f32⟩
  | .hbm, ⟨21, _⟩ => ⟨S200000x5, .f32⟩
  | .hbm, ⟨22, _⟩ => ⟨S200000x5, .f32⟩
  | .hbm, ⟨23, _⟩ => ⟨S200000x5, .f32⟩
  | .hbm, ⟨24, _⟩ => ⟨S200000x5, .f32⟩
  | .hbm, ⟨25, _⟩ => ⟨S200000x1x5, .f32⟩
  | .hbm, ⟨26, _⟩ => ⟨S200000x1x5, .f32⟩
  | .hbm, ⟨27, _⟩ => ⟨S200000x1x5, .f32⟩
  | .hbm, ⟨28, _⟩ => ⟨S200000x1x5, .f32⟩
  | .hbm, ⟨29, _⟩ => ⟨S200000x1x5, .f32⟩
  | .hbm, ⟨30, _⟩ => ⟨S200000x5x5, .f32⟩
  | .hbm, ⟨31, _⟩ => ⟨S200000x25, .f32⟩
  | _, _ => ⟨S200000x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_cst : Ref sig .tc := ⟨.hbm, 14, rfl⟩
abbrev main_call1_v0 : Ref sig .tc := ⟨.hbm, 15, rfl⟩
abbrev main_v8 : Ref sig .tc := ⟨.hbm, 16, rfl⟩
abbrev main_c : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  transposes_S10x320_S320x10_1_0 : S10x320.Transposes [1, 0] S320x10
  bcast_S_S200000x10 : S_.BroadcastsInDim S200000x10 (![] : Fin 0 → Fin S200000x10.rank)
  transposes_S5x10_S10x5_1_0 : S5x10.Transposes [1, 0] S10x5
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  bcast_S_S200000x5 : S_.BroadcastsInDim S200000x5 (![] : Fin 0 → Fin S200000x5.rank)
  pads_S200000x5_S200004x5_220_000 : S200000x5.Pads (![2, 0] : Fin 2 → Nat) ![2, 0] ![0, 0] S200004x5
  h_S_ : 0 < S_.numel
  slices_S200004x5_S200000x5_0_0 : S200004x5.Slices ![0, 0] S200000x5
  slices_S200004x5_S200000x5_1_0 : S200004x5.Slices ![1, 0] S200000x5
  slices_S200004x5_S200000x5_2_0 : S200004x5.Slices ![2, 0] S200000x5
  slices_S200004x5_S200000x5_3_0 : S200004x5.Slices ![3, 0] S200000x5
  slices_S200004x5_S200000x5_4_0 : S200004x5.Slices ![4, 0] S200000x5
  bcast_S200000x5_S200000x1x5_0_2 : S200000x5.BroadcastsInDim S200000x1x5 (![0, 2] : Fin 2 → Fin S200000x1x5.rank)
  concatenates_S200000x1x5_S200000x1x5_S200000x1x5_S200000x1x5_S200000x1x5_S200000x5x5_d1 : Shape.Concatenates [S200000x1x5, S200000x1x5, S200000x1x5, S200000x1x5, S200000x1x5] S200000x5x5 1
  shapeCasts_S200000x5x5_S200000x25 : S200000x5x5.ShapeCasts S200000x25
  dot_S200000x320_S320x10_S200000x10_1_0_0_1_n_n_wf : DotDims.WF S200000x320 S320x10 S200000x10 [1] [0] [0] [1] [] []
  dot_S200000x10_S10x5_S200000x5_1_0_0_1_n_n_wf : DotDims.WF S200000x10 S10x5 S200000x5 [1] [0] [0] [1] [] []

variable [Facts₀]

def dot_S200000x320_S320x10_S200000x10_1_0_0_1_n_n : DotDims S200000x320 S320x10 S200000x10 where
  lhsContracting := [1]
  rhsContracting := [0]
  lhsNonContracting := [0]
  rhsNonContracting := [1]
  lhsBatch := []
  rhsBatch := []
  wf := dot_S200000x320_S320x10_S200000x10_1_0_0_1_n_n_wf
def dot_S200000x10_S10x5_S200000x5_1_0_0_1_n_n : DotDims S200000x10 S10x5 S200000x5 where
  lhsContracting := [1]
  rhsContracting := [0]
  lhsNonContracting := [0]
  rhsNonContracting := [1]
  lhsBatch := []
  rhsBatch := []
  wf := dot_S200000x10_S10x5_S200000x5_1_0_0_1_n_n_wf

class Facts : Prop extends Facts₀ where

variable [Facts]
-- ==== Proof.FrameBits.Mlp.lean ====
/-
  The first kernel region, one grid point at a time.

  The region walks the 200000 rows of the input in 25 blocks of 8000. At a point the body is handed the point's
  block of rows and the three small arrays (the two weight matrices and the bias) whole, and stores one block of
  8000 x 5 hidden activations: a function of what it loaded and of nothing else. Stated here, for any float values:
  what the body leaves in the output's buffer as that function of the loaded blocks; that the body run on buffers
  holding those blocks leaves exactly that; the region's proof data (the arrays as the region finds them, each
  input's buffer at its block at every point whether or not it was fetched there, the output's at the stored value);
  and the body obligation at every point.
-/
import proofs.«170995_j36653250904914_1_alg».proof.Proof.Gen.Kernel.Launch
import proofs.«170995_j36653250904914_1_alg».proof.Proof.Gen.Kernel.Skeleton
import proofs.«170995_j36653250904914_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S8000x320 := Rect.unit (s := S8000x320) ![0, 0] S8000x320.size inb_S8000x320_S8000x320_0_0
abbrev rW1 : Rect S10x320 := Rect.unit (s := S10x320) ![0, 0] S10x320.size inb_S10x320_S10x320_0_0
abbrev rW2 : Rect S5x10 := Rect.unit (s := S5x10) ![0, 0] S5x10.size inb_S5x10_S5x10_0_0
abbrev rB : Rect S5 := Rect.unit (s := S5) ![0] S5.size inb_S5_S5_0
abbrev rT : Rect S8000x5 := Rect.unit (s := S8000x5) ![0, 0] S8000x5.size inb_S8000x5_S8000x5_0_0

/-- What the body leaves in the output's buffer: its one store, of the hidden activations computed from the four
    loaded values. -/
def stored (x : Vec F S8000x320 .f32) (w1 : Vec F S10x320 .f32) (w2 : Vec F S5x10 .f32) (b : Vec F S5 .f32) : Vec F S8000x5 .f32 :=
  View.canon [⟨rT, k0_pay1 (View.ld x rX) (View.ld w1 rW1) (View.ld w2 rW2) (View.ld b rB)⟩]

/-- The one store covers the buffer. -/
theorem stored_cover (p : Vec F S8000x5 .f32) (y : S8000x5.Idx) :
    ∃ pc ∈ ([⟨rT, p⟩] : List (View.Piece (Elt F) S8000x5 .f32)), y ∈ pc.1.set :=
  View.cover_of_tiled [⟨rT, p⟩] S8000x5.size (by rfl) y

set_option maxHeartbeats 1000000 in
/-- The body on whole buffers, the four inputs' at given contents and the output's at anything, leaves the inputs'
    as they were and the output's at the stored value. -/
theorem body_run (c : Dev nD) (E : Set ℕ) (i : grid0.Coords)
    (a1 : Memref sig .tc .vmem S8000x320 .f32) (h1 : a1.IsWhole) (a2 : Memref sig .tc .vmem S10x320 .f32) (h2 : a2.IsWhole)
    (a3 : Memref sig .tc .vmem S5x10 .f32) (h3 : a3.IsWhole) (a4 : Memref sig .tc .vmem S5 .f32) (h4 : a4.IsWhole)
    (a5 : Memref sig .tc .vmem S8000x5 .f32) (h5 : a5.IsWhole)
    (x : Vec F S8000x320 .f32) (w1 : Vec F S10x320 .f32) (w2 : Vec F S5x10 .f32) (b : Vec F S5 .f32) (K : PUnit → sProp 𝕄) :
    iprop(owns (c : Thread nD τ) a1 fullShare x ∗ owns (c : Thread nD τ) a2 fullShare w1 ∗ owns (c : Thread nD τ) a3 fullShare w2
        ∗ owns (c : Thread nD τ) a4 fullShare b ∗ (∃ d, owns (c : Thread nD τ) a5 fullShare d)
        ∗ (iprop(owns (c : Thread nD τ) a1 fullShare x ∗ owns (c : Thread nD τ) a2 fullShare w1 ∗ owns (c : Thread nD τ) a3 fullShare w2
            ∗ owns (c : Thread nD τ) a4 fullShare b ∗ owns (c : Thread nD τ) a5 fullShare (stored x w1 w2 b)) -∗ K ⟨⟩))
      ⊢ wp frame (wpE (defs₀ (F := F)) Variants.none c none) E (cc0__mlp_kernel i a1 h1 a2 h2 a3 h3 a4 h4 a5 h5) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

/-- The region's proof data on core c: the arrays as the region finds them; after the body each input's buffer at
    its block and the output's at the stored value of the four blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = stored (blk V c 0 t) (blk V c 1 t) (blk V c 2 t) (blk V c 3 t) := by dsimp only [dat]

/-- An input's current buffer holds its block at every point: where the point fetched it, the fetch put it there;
    where it did not, the block index has not moved and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)

/-- What the body is called with at point t, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the run above applies; the invariant and what the
    core owes pass through unread. -/
theorem point_run (c : Dev nD) (t : Fin cfg0.N) :
    pointPre V c t ⊢ wp frame (wpE (defs₀ (F := F)) Variants.none c none) Set.univ (bodyAt0 t) (fun _ => pointPost V c t) := by
  unfold pointPre pointPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem obligation (c : Dev nD) : BodyObligation (dat (F := F) V c) (defs₀ (F := F)) Variants.none () Set.univ := fun t => by
  rw [bigSep_W0, bigSep_W0]
  exact point_run V c t

end Cert.Kernel.Stage1

end
-- ==== Proof.FrameBits.Window.lean ====
/-
  The second kernel region, one grid point at a time.

  The region walks the padded hidden activations (208000 rows of 5) in 25 steps. At a point the body is handed TWO
  blocks of 8000 rows of that one array, the point's own and the one after it, loads the first whole and the first
  four rows of the second, and stores one block of 8000 x 25: a function of what it loaded. Both input windows read
  the same array, so the region holds that array's buffer in two halves of its share, one per window. Stated here,
  for any float values: what the body leaves in the output's buffer; that the body leaves exactly that; the region's
  proof data; and the body obligation at every point.
-/
import proofs.«170995_j36653250904914_1_alg».proof.Proof.Gen.Kernel.Launch
import proofs.«170995_j36653250904914_1_alg».proof.Proof.Gen.Kernel.Skeleton
import proofs.«170995_j36653250904914_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: the current block whole, the first four rows of the next, the
    output block whole. -/
abbrev rCur : Rect S8000x5 := Rect.unit (s := S8000x5) ![0, 0] S8000x5.size inb_S8000x5_S8000x5_0_0
abbrev rHalo : Rect S8000x5 := Rect.unit (s := S8000x5) ![0, 0] S4x5.size inb_S8000x5_S4x5_0_0
abbrev rOut : Rect S8000x25 := Rect.unit (s := S8000x25) ![0, 0] S8000x25.size inb_S8000x25_S8000x25_0_0

/-- What the body leaves in the output's buffer: its one store, of the five shifted copies laid side by side. -/
def stored (cur : Vec F S8000x5 .f32) (nxt : Vec F S8000x5 .f32) : Vec F S8000x25 .f32 :=
  View.canon [⟨rOut, k1_pay1 (View.ld cur rCur) (View.ld nxt rHalo)⟩]

/-- The one store covers the buffer. -/
theorem stored_cover (p : Vec F S8000x25 .f32) (y : S8000x25.Idx) :
    ∃ pc ∈ ([⟨rOut, p⟩] : List (View.Piece (Elt F) S8000x25 .f32)), y ∈ pc.1.set :=
  View.cover_of_tiled [⟨rOut, p⟩] S8000x25.size (by rfl) y

set_option maxHeartbeats 1000000 in
/-- The body on whole buffers, the two inputs' at given contents and the output's at anything, leaves the inputs' as
    they were and the output's at the stored value. -/
theorem body_run (c : Dev nD) (E : Set ℕ) (i : grid1.Coords)
    (a1 : Memref sig .tc .vmem S8000x5 .f32) (h1 : a1.IsWhole) (a2 : Memref sig .tc .vmem S8000x5 .f32) (h2 : a2.IsWhole)
    (a3 : Memref sig .tc .vmem S8000x25 .f32) (h3 : a3.IsWhole)
    (cur : Vec F S8000x5 .f32) (nxt : Vec F S8000x5 .f32) (K : PUnit → sProp 𝕄) :
    iprop(owns (c : Thread nD τ) a1 fullShare cur ∗ owns (c : Thread nD τ) a2 fullShare nxt ∗ (∃ d, owns (c : Thread nD τ) a3 fullShare d)
        ∗ (iprop(owns (c : Thread nD τ) a1 fullShare cur ∗ owns (c : Thread nD τ) a2 fullShare nxt
            ∗ owns (c : Thread nD τ) a3 fullShare (stored cur nxt)) -∗ K ⟨⟩))
      ⊢ wp frame (wpE (defs₀ (F := F)) Variants.none c none) E (cc1__window_kernel i a1 h1 a2 h2 a3 h3) K := by
  simp only [cc1__window_kernel_eq_skeleton]; unfold cc1__window_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The region's proof data on core c: the arrays as the region finds them; after the body each input's buffer at
    its block and the output's at the stored value of the two blocks; the invariant the scoped rest and the generator
    register, untouched; nothing owed; the padded array's share dealt in halves to the two windows that read it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => stored (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = stored (blk V c 0 t) (blk V c 1 t) := by dsimp only [dat]

/-- The shares: a half each for the two windows on the padded array, the whole for the output. -/
theorem share_0 (c : Dev nD) : (dat V c).share 0 = fullShare.left := rfl
theorem share_1 (c : Dev nD) : (dat V c).share 1 = fullShare.right := rfl
theorem share_2 (c : Dev nD) : (dat V c).share 2 = fullShare := rfl

/-- An input's current buffer holds its block at every point. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-- What the body is called with at point t, the windows one by one, -/
def pointPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def pointPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point. -/
theorem point_run (c : Dev nD) (t : Fin cfg1.N) :
    pointPre V c t ⊢ wp frame (wpE (defs₀ (F := F)) Variants.none c none) Set.univ (bodyAt1 t) (fun _ => pointPost V c t) := by
  unfold pointPre pointPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation (c : Dev nD) : BodyObligation (dat (F := F) V c) (defs₀ (F := F)) Variants.none () Set.univ := fun t => by
  rw [bigSep_W1, bigSep_W1]
  exact point_run V c t

end Cert.Kernel.Stage2

end
-- ==== Proof.FrameBits.Shares.lean ====
/-
  The padded array's buffer dealt to the two windows that read it, and joined again.

  The second region's first two windows read one array. Entering the region, the buffers behind its arrays are two:
  the padded array's, whole, and the output's, whole. The padded array's full share splits into its left and right
  halves, one for each window; both halves say the same contents. Leaving the region, the input windows' arrays
  are as they were, so the two halves join back into the full share at the same contents, and the output's buffer
  holds what the write-backs left.
-/
import proofs.«170995_j36653250904914_1_alg».proof.Proof.FrameBits.Window
import Idealize.ShloMosaic.Lib.Pipeline.Launch

set_option maxRecDepth 16384

noncomputable section

namespace Cert.Kernel.Stage2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three arrays are two. -/
theorem arrRefs_eq : Finset.univ.image (Pipeline.arrRef spec1) = ({main_v1, main_v2} : Finset (Ref sig .tc)) := by decide

theorem v1_ne_v2 : (main_v1 : Ref sig .tc) ∉ ({main_v2} : Finset (Ref sig .tc)) := by decide

/-- The buffers behind the arrays, one by one. -/
theorem arrBufs_eq (c : Dev nD) (U : (b : Ref sig .tc) → Buf (Elt F) ((c : Thread nD τ).loc b)) :
    (Pipeline.arrBufs spec1 c U : sProp 𝕄)
      = iprop((((c : Thread nD τ).loc main_v1) ↦{fullShare} U main_v1) ∗ (((c : Thread nD τ).loc main_v2) ↦{fullShare} U main_v2)) := by
  unfold Pipeline.arrBufs
  rw [arrRefs_eq, BI.bigSep_insert v1_ne_v2, BI.bigSep_singleton]
  rfl

/-- A window's array held at the window's share is its buffer's points-to at that share: the arrays are whole buffers. -/
theorem arr_0 (c : Dev nD) (f : Buf (Elt F) ((cfg1.win 0).arr.view.loc (c : Thread nD τ))) :
    ((cfg1.win 0).arr.view.loc (c : Thread nD τ) ↦[(cfg1.win 0).arr.view.set]{(dat V c).share 0} f : sProp 𝕄)
      = (((c : Thread nD τ).loc main_v1) ↦{fullShare.left} f) := by
  rw [(arr_whole1 0).set_eq_univ, share_0]
theorem arr_1 (c : Dev nD) (f : Buf (Elt F) ((cfg1.win 1).arr.view.loc (c : Thread nD τ))) :
    ((cfg1.win 1).arr.view.loc (c : Thread nD τ) ↦[(cfg1.win 1).arr.view.set]{(dat V c).share 1} f : sProp 𝕄)
      = (((c : Thread nD τ).loc main_v1) ↦{fullShare.right} f) := by
  rw [(arr_whole1 1).set_eq_univ, share_1]
theorem arr_2 (c : Dev nD) (f : Buf (Elt F) ((cfg1.win 2).arr.view.loc (c : Thread nD τ))) :
    ((cfg1.win 2).arr.view.loc (c : Thread nD τ) ↦[(cfg1.win 2).arr.view.set]{(dat V c).share 2} f : sProp 𝕄)
      = (((c : Thread nD τ).loc main_v2) ↦{fullShare} f) := by
  rw [(arr_whole1 2).set_eq_univ, share_2]

/-- The three windows' arrays at contents F, buffer by buffer. -/
theorem arrays_eq3 (c : Dev nD) (G : (w : Fin cfg1.W) → Buf (Elt F) ((cfg1.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, arr_0, arr_1, arr_2]

/-- ENTRY: the two buffers deal into the three windows' arrays at the region's entry contents. -/
theorem deal (c : Dev nD) :
    (Pipeline.arrBufs spec1 c (V c) : sProp 𝕄) ⊢ (dat V c).arrays ((dat V c).arrAt · 0) := by
  rw [arrBufs_eq, arrays_eq3]
  refine (sep_mono (pointsTo_share (PosShare.mem_left_op_right fullShare)).1 .rfl).trans ?_
  exact sep_assoc.1

/-- EXIT: the windows' arrays at the end join into the two buffers: the padded array as entered, the output at what
    the write-backs left. -/
theorem join (c : Dev nD) (U : (b : Ref sig .tc) → Buf (Elt F) ((c : Thread nD τ).loc b))
    (h1 : U main_v1 = V c main_v1) (h2 : U main_v2 = (dat V c).arrAt 2 cfg1.N) :
    (dat V c).arrays ((dat V c).arrAt · cfg1.N) ⊢ (Pipeline.arrBufs spec1 c U : sProp 𝕄) := by
  rw [arrBufs_eq, arrays_eq3, h1, h2, (dat V c).arrAt_in 0 rfl, (dat V c).arrAt_in 1 rfl]
  refine sep_assoc.2.trans ?_
  exact sep_mono (pointsTo_share (PosShare.mem_left_op_right fullShare)).2 .rfl

end Cert.Kernel.Stage2

end
-- ==== Proof.FrameBits.Run.lean ====
/-
  The whole run of @main: region, two host stretches, region.

  Between two items of @main the core holds every unscoped buffer whole at known contents: the launch memory; then
  the first region's arrays at what its write-backs leave (the hidden activations in their buffer, every other
  buffer untouched); then what the two host stretches compute from that (the integer zero, its conversion, the padded
  array); then the second region's output at what its write-backs leave. The first region's windows read distinct
  arrays. The second region's two input windows read the one padded array: its buffer enters that region in two
  halves of its share and leaves it joined. Nothing is owed at any boundary and no kernel has a semaphore of its own.
  The result: every weakly fair execution terminates and the final memory holds every unscoped buffer at the last
  boundary's contents; each argument's buffer there is the launch memory's.
-/
import proofs.«170995_j36653250904914_1_alg».proof.Proof.FrameBits.Mlp
import proofs.«170995_j36653250904914_1_alg».proof.Proof.FrameBits.Shares
import proofs.«170995_j36653250904914_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- The same read at the TensorCore's references: what the first region is entered with. -/
abbrev E0 : (c : Dev nD) → (b : Ref sig .tc) → Buf (Elt F) ((c : Thread nD τ).loc b) := fun c b => B0 m ρ c b
/-- After the first region: its arrays at what the pipeline leaves, every other buffer as launched. -/
def B1 (c : Dev nD) : Valuation τ sig (Elt F) :=
  Pipeline.withArrays spec0 c (B0 m ρ c) fun w => (Stage1.dat (E0 m ρ) c).arrAt w cfg0.N
abbrev E1 : (c : Dev nD) → (b : Ref sig .tc) → Buf (Elt F) ((c : Thread nD τ).loc b) := fun c b => B1 m ρ c b
/-- After the first host stretch (the integer zero), -/
abbrev B2 : Dev nD → Valuation τ sig (Elt F) := fun c => StableHlo.after hostOps1 (B1 m ρ c)
/-- and after the second (its conversion, the padding): what the second region is entered with. -/
abbrev B3 : Dev nD → Valuation τ sig (Elt F) := fun c => StableHlo.after hostOps1_1 (B2 m ρ c)
abbrev E3 : (c : Dev nD) → (b : Ref sig .tc) → Buf (Elt F) ((c : Thread nD τ).loc b) := fun c b => B3 m ρ c b
/-- After the second region: its output at what the pipeline leaves, every other buffer as entered. -/
def B4 (c : Dev nD) : Valuation τ sig (Elt F) :=
  Function.update (B3 m ρ c) main_v2 ((Stage2.dat (E3 m ρ) c).arrAt 2 cfg1.N)
abbrev E4 : (c : Dev nD) → (b : Ref sig .tc) → Buf (Elt F) ((c : Thread nD τ).loc b) := fun c b => B4 m ρ c b

theorem B1_arr (c : Dev nD) (w : Fin cfg0.W) :
    B1 m ρ c (Proc.devRef .tc (Pipeline.arrRef spec0 w)) = (Stage1.dat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
theorem B4_out (c : Dev nD) : B4 m ρ c (Proc.devRef .tc main_v2) = (Stage2.dat (E3 m ρ) c).arrAt 2 cfg1.N := by
  unfold B4; exact Function.update_self ..
theorem B4_of_ne (c : Dev nD) (b : Ref sig .tc) (hb : b ≠ main_v2) :
    B4 m ρ c (Proc.devRef .tc b) = B3 m ρ c (Proc.devRef .tc b) := by
  unfold B4
  exact Function.update_of_ne (StableHlo.devRef_ne_of_ne hb : (Proc.devRef .tc b : DevRef τ sig) ≠ Proc.devRef .tc main_v2) _ _

/-! ## The proof data of both regions, and what rides along -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Stage1.dat (E0 m ρ) c
  | ⟨1, _⟩ => fun c => Stage2.dat (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch over the unscoped buffers from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last boundary without what is owed. -/
abbrev Tend (c : Dev nD) : sProp 𝕄 := iprop(StableHlo.held (c : Thread nD τ) (Pipeline.ucRefs τ sig) (B4 m ρ c) ∗ ∃ r, prngReg c r)

/-! ## The first region as a segment -/

theorem exit0_arr (c : Dev nD) (w : Fin cfg0.W) : (Stage1.dat (E0 m ρ) c).arrAt w cfg0.N = E1 m ρ c (Pipeline.arrRef spec0 w) :=
  (B1_arr m ρ c w).symm
theorem exit0_rest (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

set_option backward.isDefEq.respectTransparency.types false in
/-- Entered from every unscoped buffer at the launch contents, left at the contents after it. Its arrays are distinct
    buffers: they split out of the unscoped buffers whole and go back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.obligation (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- Off the second region's arrays the last boundary's contents are the entry's. -/
theorem rest1_eq (c : Dev nD) :
    (Pipeline.unscopedRest (Ix := Unit) (Name := ℕ) (U := UR sig nD τ) (Lvl := ℕ) spec1 c (E3 m ρ c) : sProp 𝕄)
      = Pipeline.unscopedRest spec1 c (E4 m ρ c) := by
  unfold Pipeline.unscopedRest
  refine bigSep_congr fun b hb => ?_
  have hb' : b ∉ Finset.univ.image (Pipeline.arrRef spec1) := (Finset.mem_sdiff.mp hb).2
  rw [Stage2.arrRefs_eq] at hb'
  have hne : b ≠ main_v2 := fun e => hb' (by rw [e]; simp)
  rw [show E4 m ρ c b = E3 m ρ c b from B4_of_ne m ρ c b hne]

/-- ENTRY of the second region: every unscoped buffer at the entry contents is the region's arrays, the padded array's
    buffer in its two halves, beside the buffers no window reads. -/
theorem enter1 (c : Dev nD) :
    (StableHlo.held (c : Thread nD τ) (Pipeline.ucRefs τ sig) (B3 m ρ c) : sProp 𝕄)
      ⊢ iprop((pdats m ρ 1 c).arrays ((pdats m ρ 1 c).arrAt · 0) ∗ Pipeline.unscopedRest spec1 c (E3 m ρ c)) := by
  rw [← Pipeline.unscopedBufs_held c (B3 m ρ c)]
  rw [show (unscopedBufs c (fun b => B3 m ρ c b) : sProp 𝕄)
      = iprop(Pipeline.arrBufs spec1 c (E3 m ρ c) ∗ Pipeline.unscopedRest spec1 c (E3 m ρ c)) from
    Pipeline.unscopedBufs_split₀ (Pipeline.pin (pcfgs (F := F)) adm) 1 winFacts₀1.arr_unscoped c (E3 m ρ c)]
  exact BIClass.sep_mono (Stage2.deal (E3 m ρ) c) .rfl

/-- EXIT of the second region: its arrays at their final contents, the halves joined, beside the buffers no window
    reads, are every unscoped buffer at the last boundary's contents. -/
theorem exit1 (c : Dev nD) :
    iprop((pdats m ρ 1 c).arrays ((pdats m ρ 1 c).arrAt · cfg1.N) ∗ Pipeline.unscopedRest spec1 c (E3 m ρ c))
      ⊢ (StableHlo.held (c : Thread nD τ) (Pipeline.ucRefs τ sig) (B4 m ρ c) : sProp 𝕄) := by
  rw [← Pipeline.unscopedBufs_held c (B4 m ρ c)]
  rw [show (unscopedBufs c (fun b => B4 m ρ c b) : sProp 𝕄)
      = iprop(Pipeline.arrBufs spec1 c (E4 m ρ c) ∗ Pipeline.unscopedRest spec1 c (E4 m ρ c)) from
    Pipeline.unscopedBufs_split₀ (Pipeline.pin (pcfgs (F := F)) adm) 1 winFacts₀1.arr_unscoped c (E4 m ρ c)]
  have hne : (main_v1 : Ref sig .tc) ≠ main_v2 := by decide
  exact BIClass.sep_mono (Stage2.join (E3 m ρ) c (E4 m ρ c) (B4_of_ne m ρ c main_v1 hne) (B4_out m ρ c))
    (Entails.of_eq (rest1_eq m ρ c))

set_option backward.isDefEq.respectTransparency.types false in
/-- Entered from every unscoped buffer at the contents before it, left at the last boundary's. The padded array's
    buffer is read by two windows: it enters in two halves of its share and leaves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Stage2.obligation (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (enter1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c); isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .host (hseg hostOps1_1 hostOps1_1_sub hostOps1_1_fresh (B2 m ρ)),
    .region (reg1 m ρ) ]

theorem main_run (c : Dev nD) : main (F := F) c = Pipeline.Seg.run (segs m ρ) := (main_chain c).trans (by chain_rfl)

/-- An unscoped TensorCore reference is among those the boundaries hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-! ## What the boundaries hold at the buffers the claims read -/

/-- No item writes an argument: at the last boundary each argument's buffer holds the launch memory's contents. The
    second region does not touch it, no host stretch writes it, and the first region reads it through an input window. -/
theorem end_main_arg0 (c : Dev nD) : B4 m ρ c (Proc.devRef .tc main_arg0) = m ((c : Thread nD τ).loc main_arg0) :=
  (B4_of_ne m ρ c main_arg0 (by decide)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (B1_arr m ρ c 0).trans <| ((Stage1.dat (E0 m ρ) c).arrAt_in 0 rfl _).trans (Stage1.dat_A (E0 m ρ) c 0)
theorem end_main_arg1 (c : Dev nD) : B4 m ρ c (Proc.devRef .tc main_arg1) = m ((c : Thread nD τ).loc main_arg1) :=
  (B4_of_ne m ρ c main_arg1 (by decide)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (B1_arr m ρ c 1).trans <| ((Stage1.dat (E0 m ρ) c).arrAt_in 1 rfl _).trans (Stage1.dat_A (E0 m ρ) c 1)
theorem end_main_arg2 (c : Dev nD) : B4 m ρ c (Proc.devRef .tc main_arg2) = m ((c : Thread nD τ).loc main_arg2) :=
  (B4_of_ne m ρ c main_arg2 (by decide)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (B1_arr m ρ c 2).trans <| ((Stage1.dat (E0 m ρ) c).arrAt_in 2 rfl _).trans (Stage1.dat_A (E0 m ρ) c 2)
theorem end_main_arg3 (c : Dev nD) : B4 m ρ c (Proc.devRef .tc main_arg3) = m ((c : Thread nD τ).loc main_arg3) :=
  (B4_of_ne m ρ c main_arg3 (by decide)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (B1_arr m ρ c 3).trans <| ((Stage1.dat (E0 m ρ) c).arrAt_in 3 rfl _).trans (Stage1.dat_A (E0 m ρ) c 3)

/-- The frame: every argument's buffer ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c)⟩) (run_all m ρ)

/-- The first region's entry contents at the arguments are the launch memory's. -/
theorem entry0_arg (c : Dev nD) (b : Ref sig .tc) : E0 m ρ c b = m ((c : Thread nD τ).loc b) := rfl

/-- The hidden activations' buffer after the first region holds what its write-backs left. -/
theorem after0_hidden (c : Dev nD) : E1 m ρ c main_v0 = (Stage1.dat (E0 m ρ) c).arrAt 4 cfg0.N := B1_arr m ρ c 4

/-- The second region's input array: the host stretches pad the first region's output with the converted integer zero,
    two rows before and 7998 after. -/
theorem entry1_padded (c : Dev nD) :
    E3 m ρ c main_v1 = pad S208000x5 ![2, 0] ![7998, 0] ![0, 0] (E1 m ρ c main_v0)
      (sitofp .f32 (constantI S_ 32 0#32) : FVec F S_ .f32) pads_S200000x5_S208000x5_279980_000 h_S_ := by
  show StableHlo.after hostOps1_1 (StableHlo.after hostOps1 (B1 m ρ c)) (Proc.devRef .tc main_v1) = _
  after_results
  rfl

end Cert.Kernel.Whole

end
-- ==== Proof.FrameIdeal.Mlp.lean ====
/-
  The first kernel region, one grid point at a time.

  The region walks the 200000 rows of the input in 25 blocks of 8000. At a point the body is handed the point's
  block of rows and the three small arrays (the two weight matrices and the bias) whole, and stores one block of
  8000 x 5 hidden activations: a function of what it loaded and of nothing else. Stated here, for any float values:
  what the body leaves in the output's buffer as that function of the loaded blocks; that the body run on buffers
  holding those blocks leaves exactly that; the region's proof data (the arrays as the region finds them, each
  input's buffer at its block at every point whether or not it was fetched there, the output's at the stored value);
  and the body obligation at every point.
-/
import proofs.«170995_j36653250904914_1_alg».proof.Proof.Gen.KernelIdeal.Launch
import proofs.«170995_j36653250904914_1_alg».proof.Proof.Gen.KernelIdeal.Skeleton
import proofs.«170995_j36653250904914_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S8000x320 := Rect.unit (s := S8000x320) ![0, 0] S8000x320.size inb_S8000x320_S8000x320_0_0
abbrev rW1 : Rect S10x320 := Rect.unit (s := S10x320) ![0, 0] S10x320.size inb_S10x320_S10x320_0_0
abbrev rW2 : Rect S5x10 := Rect.unit (s := S5x10) ![0, 0] S5x10.size inb_S5x10_S5x10_0_0
abbrev rB : Rect S5 := Rect.unit (s := S5) ![0] S5.size inb_S5_S5_0
abbrev rT : Rect S8000x5 := Rect.unit (s := S8000x5) ![0, 0] S8000x5.size inb_S8000x5_S8000x5_0_0

/-- What the body leaves in the output's buffer: its one store, of the hidden activations computed from the four
    loaded values. -/
def stored (x : Vec F S8000x320 .f32) (w1 : Vec F S10x320 .f32) (w2 : Vec F S5x10 .f32) (b : Vec F S5 .f32) : Vec F S8000x5 .f32 :=
  View.canon [⟨rT, k0_pay1 (View.ld x rX) (View.ld w1 rW1) (View.ld w2 rW2) (View.ld b rB)⟩]

/-- The one store covers the buffer. -/
theorem stored_cover (p : Vec F S8000x5 .f32) (y : S8000x5.Idx) :
    ∃ pc ∈ ([⟨rT, p⟩] : List (View.Piece (Elt F) S8000x5 .f32)), y ∈ pc.1.set :=
  View.cover_of_tiled [⟨rT, p⟩] S8000x5.size (by rfl) y

set_option maxHeartbeats 1000000 in
/-- The body on whole buffers, the four inputs' at given contents and the output's at anything, leaves the inputs'
    as they were and the output's at the stored value. -/
theorem body_run (c : Dev nD) (E : Set ℕ) (i : grid0.Coords)
    (a1 : Memref sig .tc .vmem S8000x320 .f32) (h1 : a1.IsWhole) (a2 : Memref sig .tc .vmem S10x320 .f32) (h2 : a2.IsWhole)
    (a3 : Memref sig .tc .vmem S5x10 .f32) (h3 : a3.IsWhole) (a4 : Memref sig .tc .vmem S5 .f32) (h4 : a4.IsWhole)
    (a5 : Memref sig .tc .vmem S8000x5 .f32) (h5 : a5.IsWhole)
    (x : Vec F S8000x320 .f32) (w1 : Vec F S10x320 .f32) (w2 : Vec F S5x10 .f32) (b : Vec F S5 .f32) (K : PUnit → sProp 𝕄) :
    iprop(owns (c : Thread nD τ) a1 fullShare x ∗ owns (c : Thread nD τ) a2 fullShare w1 ∗ owns (c : Thread nD τ) a3 fullShare w2
        ∗ owns (c : Thread nD τ) a4 fullShare b ∗ (∃ d, owns (c : Thread nD τ) a5 fullShare d)
        ∗ (iprop(owns (c : Thread nD τ) a1 fullShare x ∗ owns (c : Thread nD τ) a2 fullShare w1 ∗ owns (c : Thread nD τ) a3 fullShare w2
            ∗ owns (c : Thread nD τ) a4 fullShare b ∗ owns (c : Thread nD τ) a5 fullShare (stored x w1 w2 b)) -∗ K ⟨⟩))
      ⊢ wp frame (wpE (defs₀ (F := F)) Variants.none c none) E (cc0__mlp_kernel i a1 h1 a2 h2 a3 h3 a4 h4 a5 h5) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

/-- The region's proof data on core c: the arrays as the region finds them; after the body each input's buffer at
    its block and the output's at the stored value of the four blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => stored (blk V c 0 t) (blk V c 1 t) (blk V c 2 t) (blk V c 3 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = stored (blk V c 0 t) (blk V c 1 t) (blk V c 2 t) (blk V c 3 t) := by dsimp only [dat]

/-- An input's current buffer holds its block at every point: where the point fetched it, the fetch put it there;
    where it did not, the block index has not moved and the body left the block in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)

/-- What the body is called with at point t, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the run above applies; the invariant and what the
    core owes pass through unread. -/
theorem point_run (c : Dev nD) (t : Fin cfg0.N) :
    pointPre V c t ⊢ wp frame (wpE (defs₀ (F := F)) Variants.none c none) Set.univ (bodyAt0 t) (fun _ => pointPost V c t) := by
  unfold pointPre pointPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem obligation (c : Dev nD) : BodyObligation (dat (F := F) V c) (defs₀ (F := F)) Variants.none () Set.univ := fun t => by
  rw [bigSep_W0, bigSep_W0]
  exact point_run V c t

end Cert.KernelIdeal.Stage1

end
-- ==== Proof.FrameIdeal.Window.lean ====
/-
  The second kernel region, one grid point at a time.

  The region walks the padded hidden activations (208000 rows of 5) in 25 steps. At a point the body is handed TWO
  blocks of 8000 rows of that one array, the point's own and the one after it, loads the first whole and the first
  four rows of the second, and stores one block of 8000 x 25: a function of what it loaded. Both input windows read
  the same array, so the region holds that array's buffer in two halves of its share, one per window. Stated here,
  for any float values: what the body leaves in the output's buffer; that the body leaves exactly that; the region's
  proof data; and the body obligation at every point.
-/
import proofs.«170995_j36653250904914_1_alg».proof.Proof.Gen.KernelIdeal.Launch
import proofs.«170995_j36653250904914_1_alg».proof.Proof.Gen.KernelIdeal.Skeleton
import proofs.«170995_j36653250904914_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: the current block whole, the first four rows of the next, the
    output block whole. -/
abbrev rCur : Rect S8000x5 := Rect.unit (s := S8000x5) ![0, 0] S8000x5.size inb_S8000x5_S8000x5_0_0
abbrev rHalo : Rect S8000x5 := Rect.unit (s := S8000x5) ![0, 0] S4x5.size inb_S8000x5_S4x5_0_0
abbrev rOut : Rect S8000x25 := Rect.unit (s := S8000x25) ![0, 0] S8000x25.size inb_S8000x25_S8000x25_0_0

/-- What the body leaves in the output's buffer: its one store, of the five shifted copies laid side by side. -/
def stored (cur : Vec F S8000x5 .f32) (nxt : Vec F S8000x5 .f32) : Vec F S8000x25 .f32 :=
  View.canon [⟨rOut, k1_pay1 (View.ld cur rCur) (View.ld nxt rHalo)⟩]

/-- The one store covers the buffer. -/
theorem stored_cover (p : Vec F S8000x25 .f32) (y : S8000x25.Idx) :
    ∃ pc ∈ ([⟨rOut, p⟩] : List (View.Piece (Elt F) S8000x25 .f32)), y ∈ pc.1.set :=
  View.cover_of_tiled [⟨rOut, p⟩] S8000x25.size (by rfl) y

set_option maxHeartbeats 1000000 in
/-- The body on whole buffers, the two inputs' at given contents and the output's at anything, leaves the inputs' as
    they were and the output's at the stored value. -/
theorem body_run (c : Dev nD) (E : Set ℕ) (i : grid1.Coords)
    (a1 : Memref sig .tc .vmem S8000x5 .f32) (h1 : a1.IsWhole) (a2 : Memref sig .tc .vmem S8000x5 .f32) (h2 : a2.IsWhole)
    (a3 : Memref sig .tc .vmem S8000x25 .f32) (h3 : a3.IsWhole)
    (cur : Vec F S8000x5 .f32) (nxt : Vec F S8000x5 .f32) (K : PUnit → sProp 𝕄) :
    iprop(owns (c : Thread nD τ) a1 fullShare cur ∗ owns (c : Thread nD τ) a2 fullShare nxt ∗ (∃ d, owns (c : Thread nD τ) a3 fullShare d)
        ∗ (iprop(owns (c : Thread nD τ) a1 fullShare cur ∗ owns (c : Thread nD τ) a2 fullShare nxt
            ∗ owns (c : Thread nD τ) a3 fullShare (stored cur nxt)) -∗ K ⟨⟩))
      ⊢ wp frame (wpE (defs₀ (F := F)) Variants.none c none) E (cc1__window_kernel i a1 h1 a2 h2 a3 h3) K := by
  simp only [cc1__window_kernel_eq_skeleton]; unfold cc1__window_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The region's proof data on core c: the arrays as the region finds them; after the body each input's buffer at
    its block and the output's at the stored value of the two blocks; the invariant the scoped rest and the generator
    register, untouched; nothing owed; the padded array's share dealt in halves to the two windows that read it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => stored (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = stored (blk V c 0 t) (blk V c 1 t) := by dsimp only [dat]

/-- The shares: a half each for the two windows on the padded array, the whole for the output. -/
theorem share_0 (c : Dev nD) : (dat V c).share 0 = fullShare.left := rfl
theorem share_1 (c : Dev nD) : (dat V c).share 1 = fullShare.right := rfl
theorem share_2 (c : Dev nD) : (dat V c).share 2 = fullShare := rfl

/-- An input's current buffer holds its block at every point. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-- What the body is called with at point t, the windows one by one, -/
def pointPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def pointPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point. -/
theorem point_run (c : Dev nD) (t : Fin cfg1.N) :
    pointPre V c t ⊢ wp frame (wpE (defs₀ (F := F)) Variants.none c none) Set.univ (bodyAt1 t) (fun _ => pointPost V c t) := by
  unfold pointPre pointPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation (c : Dev nD) : BodyObligation (dat (F := F) V c) (defs₀ (F := F)) Variants.none () Set.univ := fun t => by
  rw [bigSep_W1, bigSep_W1]
  exact point_run V c t

end Cert.KernelIdeal.Stage2

end
-- ==== Proof.FrameIdeal.Shares.lean ====
/-
  The padded array's buffer dealt to the two windows that read it, and joined again.

  The second region's first two windows read one array. Entering the region, the buffers behind its arrays are two:
  the padded array's, whole, and the output's, whole. The padded array's full share splits into its left and right
  halves, one for each window; both halves say the same contents. Leaving the region, the input windows' arrays
  are as they were, so the two halves join back into the full share at the same contents, and the output's buffer
  holds what the write-backs left.
-/
import proofs.«170995_j36653250904914_1_alg».proof.Proof.FrameIdeal.Window
import Idealize.ShloMosaic.Lib.Pipeline.Launch

set_option maxRecDepth 16384

noncomputable section

namespace Cert.KernelIdeal.Stage2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three arrays are two. -/
theorem arrRefs_eq : Finset.univ.image (Pipeline.arrRef spec1) = ({main_v1, main_v2} : Finset (Ref sig .tc)) := by decide

theorem v1_ne_v2 : (main_v1 : Ref sig .tc) ∉ ({main_v2} : Finset (Ref sig .tc)) := by decide

/-- The buffers behind the arrays, one by one. -/
theorem arrBufs_eq (c : Dev nD) (U : (b : Ref sig .tc) → Buf (Elt F) ((c : Thread nD τ).loc b)) :
    (Pipeline.arrBufs spec1 c U : sProp 𝕄)
      = iprop((((c : Thread nD τ).loc main_v1) ↦{fullShare} U main_v1) ∗ (((c : Thread nD τ).loc main_v2) ↦{fullShare} U main_v2)) := by
  unfold Pipeline.arrBufs
  rw [arrRefs_eq, BI.bigSep_insert v1_ne_v2, BI.bigSep_singleton]
  rfl

/-- A window's array held at the window's share is its buffer's points-to at that share: the arrays are whole buffers. -/
theorem arr_0 (c : Dev nD) (f : Buf (Elt F) ((cfg1.win 0).arr.view.loc (c : Thread nD τ))) :
    ((cfg1.win 0).arr.view.loc (c : Thread nD τ) ↦[(cfg1.win 0).arr.view.set]{(dat V c).share 0} f : sProp 𝕄)
      = (((c : Thread nD τ).loc main_v1) ↦{fullShare.left} f) := by
  rw [(arr_whole1 0).set_eq_univ, share_0]
theorem arr_1 (c : Dev nD) (f : Buf (Elt F) ((cfg1.win 1).arr.view.loc (c : Thread nD τ))) :
    ((cfg1.win 1).arr.view.loc (c : Thread nD τ) ↦[(cfg1.win 1).arr.view.set]{(dat V c).share 1} f : sProp 𝕄)
      = (((c : Thread nD τ).loc main_v1) ↦{fullShare.right} f) := by
  rw [(arr_whole1 1).set_eq_univ, share_1]
theorem arr_2 (c : Dev nD) (f : Buf (Elt F) ((cfg1.win 2).arr.view.loc (c : Thread nD τ))) :
    ((cfg1.win 2).arr.view.loc (c : Thread nD τ) ↦[(cfg1.win 2).arr.view.set]{(dat V c).share 2} f : sProp 𝕄)
      = (((c : Thread nD τ).loc main_v2) ↦{fullShare} f) := by
  rw [(arr_whole1 2).set_eq_univ, share_2]

/-- The three windows' arrays at contents F, buffer by buffer. -/
theorem arrays_eq3 (c : Dev nD) (G : (w : Fin cfg1.W) → Buf (Elt F) ((cfg1.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, arr_0, arr_1, arr_2]

/-- ENTRY: the two buffers deal into the three windows' arrays at the region's entry contents. -/
theorem deal (c : Dev nD) :
    (Pipeline.arrBufs spec1 c (V c) : sProp 𝕄) ⊢ (dat V c).arrays ((dat V c).arrAt · 0) := by
  rw [arrBufs_eq, arrays_eq3]
  refine (sep_mono (pointsTo_share (PosShare.mem_left_op_right fullShare)).1 .rfl).trans ?_
  exact sep_assoc.1

/-- EXIT: the windows' arrays at the end join into the two buffers: the padded array as entered, the output at what
    the write-backs left. -/
theorem join (c : Dev nD) (U : (b : Ref sig .tc) → Buf (Elt F) ((c : Thread nD τ).loc b))
    (h1 : U main_v1 = V c main_v1) (h2 : U main_v2 = (dat V c).arrAt 2 cfg1.N) :
    (dat V c).arrays ((dat V c).arrAt · cfg1.N) ⊢ (Pipeline.arrBufs spec1 c U : sProp 𝕄) := by
  rw [arrBufs_eq, arrays_eq3, h1, h2, (dat V c).arrAt_in 0 rfl, (dat V c).arrAt_in 1 rfl]
  refine sep_assoc.2.trans ?_
  exact sep_mono (pointsTo_share (PosShare.mem_left_op_right fullShare)).2 .rfl

end Cert.KernelIdeal.Stage2

end
-- ==== Proof.FrameIdeal.Run.lean ====
/-
  The whole run of @main: region, two host stretches, region.

  Between two items of @main the core holds every unscoped buffer whole at known contents: the launch memory; then
  the first region's arrays at what its write-backs leave (the hidden activations in their buffer, every other
  buffer untouched); then what the two host stretches compute from that (the integer zero, its conversion, the padded
  array); then the second region's output at what its write-backs leave. The first region's windows read distinct
  arrays. The second region's two input windows read the one padded array: its buffer enters that region in two
  halves of its share and leaves it joined. Nothing is owed at any boundary and no kernel has a semaphore of its own.
  The result: every weakly fair execution terminates and the final memory holds every unscoped buffer at the last
  boundary's contents; each argument's buffer there is the launch memory's.
-/
import proofs.«170995_j36653250904914_1_alg».proof.Proof.FrameIdeal.Mlp
import proofs.«170995_j36653250904914_1_alg».proof.Proof.FrameIdeal.Shares
import proofs.«170995_j36653250904914_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- The same read at the TensorCore's references: what the first region is entered with. -/
abbrev E0 : (c : Dev nD) → (b : Ref sig .tc) → Buf (Elt F) ((c : Thread nD τ).loc b) := fun c b => B0 m ρ c b
/-- After the first region: its arrays at what the pipeline leaves, every other buffer as launched. -/
def B1 (c : Dev nD) : Valuation τ sig (Elt F) :=
  Pipeline.withArrays spec0 c (B0 m ρ c) fun w => (Stage1.dat (E0 m ρ) c).arrAt w cfg0.N
abbrev E1 : (c : Dev nD) → (b : Ref sig .tc) → Buf (Elt F) ((c : Thread nD τ).loc b) := fun c b => B1 m ρ c b
/-- After the first host stretch (the integer zero), -/
abbrev B2 : Dev nD → Valuation τ sig (Elt F) := fun c => StableHlo.after hostOps1 (B1 m ρ c)
/-- and after the second (its conversion, the padding): what the second region is entered with. -/
abbrev B3 : Dev nD → Valuation τ sig (Elt F) := fun c => StableHlo.after hostOps1_1 (B2 m ρ c)
abbrev E3 : (c : Dev nD) → (b : Ref sig .tc) → Buf (Elt F) ((c : Thread nD τ).loc b) := fun c b => B3 m ρ c b
/-- After the second region: its output at what the pipeline leaves, every other buffer as entered. -/
def B4 (c : Dev nD) : Valuation τ sig (Elt F) :=
  Function.update (B3 m ρ c) main_v2 ((Stage2.dat (E3 m ρ) c).arrAt 2 cfg1.N)
abbrev E4 : (c : Dev nD) → (b : Ref sig .tc) → Buf (Elt F) ((c : Thread nD τ).loc b) := fun c b => B4 m ρ c b

theorem B1_arr (c : Dev nD) (w : Fin cfg0.W) :
    B1 m ρ c (Proc.devRef .tc (Pipeline.arrRef spec0 w)) = (Stage1.dat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
theorem B4_out (c : Dev nD) : B4 m ρ c (Proc.devRef .tc main_v2) = (Stage2.dat (E3 m ρ) c).arrAt 2 cfg1.N := by
  unfold B4; exact Function.update_self ..
theorem B4_of_ne (c : Dev nD) (b : Ref sig .tc) (hb : b ≠ main_v2) :
    B4 m ρ c (Proc.devRef .tc b) = B3 m ρ c (Proc.devRef .tc b) := by
  unfold B4
  exact Function.update_of_ne (StableHlo.devRef_ne_of_ne hb : (Proc.devRef .tc b : DevRef τ sig) ≠ Proc.devRef .tc main_v2) _ _

/-! ## The proof data of both regions, and what rides along -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Stage1.dat (E0 m ρ) c
  | ⟨1, _⟩ => fun c => Stage2.dat (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch over the unscoped buffers from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last boundary without what is owed. -/
abbrev Tend (c : Dev nD) : sProp 𝕄 := iprop(StableHlo.held (c : Thread nD τ) (Pipeline.ucRefs τ sig) (B4 m ρ c) ∗ ∃ r, prngReg c r)

/-! ## The first region as a segment -/

theorem exit0_arr (c : Dev nD) (w : Fin cfg0.W) : (Stage1.dat (E0 m ρ) c).arrAt w cfg0.N = E1 m ρ c (Pipeline.arrRef spec0 w) :=
  (B1_arr m ρ c w).symm
theorem exit0_rest (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

set_option backward.isDefEq.respectTransparency.types false in
/-- Entered from every unscoped buffer at the launch contents, left at the contents after it. Its arrays are distinct
    buffers: they split out of the unscoped buffers whole and go back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.obligation (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- Off the second region's arrays the last boundary's contents are the entry's. -/
theorem rest1_eq (c : Dev nD) :
    (Pipeline.unscopedRest (Ix := Unit) (Name := ℕ) (U := UR sig nD τ) (Lvl := ℕ) spec1 c (E3 m ρ c) : sProp 𝕄)
      = Pipeline.unscopedRest spec1 c (E4 m ρ c) := by
  unfold Pipeline.unscopedRest
  refine bigSep_congr fun b hb => ?_
  have hb' : b ∉ Finset.univ.image (Pipeline.arrRef spec1) := (Finset.mem_sdiff.mp hb).2
  rw [Stage2.arrRefs_eq] at hb'
  have hne : b ≠ main_v2 := fun e => hb' (by rw [e]; simp)
  rw [show E4 m ρ c b = E3 m ρ c b from B4_of_ne m ρ c b hne]

/-- ENTRY of the second region: every unscoped buffer at the entry contents is the region's arrays, the padded array's
    buffer in its two halves, beside the buffers no window reads. -/
theorem enter1 (c : Dev nD) :
    (StableHlo.held (c : Thread nD τ) (Pipeline.ucRefs τ sig) (B3 m ρ c) : sProp 𝕄)
      ⊢ iprop((pdats m ρ 1 c).arrays ((pdats m ρ 1 c).arrAt · 0) ∗ Pipeline.unscopedRest spec1 c (E3 m ρ c)) := by
  rw [← Pipeline.unscopedBufs_held c (B3 m ρ c)]
  rw [show (unscopedBufs c (fun b => B3 m ρ c b) : sProp 𝕄)
      = iprop(Pipeline.arrBufs spec1 c (E3 m ρ c) ∗ Pipeline.unscopedRest spec1 c (E3 m ρ c)) from
    Pipeline.unscopedBufs_split₀ (Pipeline.pin (pcfgs (F := F)) adm) 1 winFacts₀1.arr_unscoped c (E3 m ρ c)]
  exact BIClass.sep_mono (Stage2.deal (E3 m ρ) c) .rfl

/-- EXIT of the second region: its arrays at their final contents, the halves joined, beside the buffers no window
    reads, are every unscoped buffer at the last boundary's contents. -/
theorem exit1 (c : Dev nD) :
    iprop((pdats m ρ 1 c).arrays ((pdats m ρ 1 c).arrAt · cfg1.N) ∗ Pipeline.unscopedRest spec1 c (E3 m ρ c))
      ⊢ (StableHlo.held (c : Thread nD τ) (Pipeline.ucRefs τ sig) (B4 m ρ c) : sProp 𝕄) := by
  rw [← Pipeline.unscopedBufs_held c (B4 m ρ c)]
  rw [show (unscopedBufs c (fun b => B4 m ρ c b) : sProp 𝕄)
      = iprop(Pipeline.arrBufs spec1 c (E4 m ρ c) ∗ Pipeline.unscopedRest spec1 c (E4 m ρ c)) from
    Pipeline.unscopedBufs_split₀ (Pipeline.pin (pcfgs (F := F)) adm) 1 winFacts₀1.arr_unscoped c (E4 m ρ c)]
  have hne : (main_v1 : Ref sig .tc) ≠ main_v2 := by decide
  exact BIClass.sep_mono (Stage2.join (E3 m ρ) c (E4 m ρ c) (B4_of_ne m ρ c main_v1 hne) (B4_out m ρ c))
    (Entails.of_eq (rest1_eq m ρ c))

set_option backward.isDefEq.respectTransparency.types false in
/-- Entered from every unscoped buffer at the contents before it, left at the last boundary's. The padded array's
    buffer is read by two windows: it enters in two halves of its share and leaves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Stage2.obligation (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (enter1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c); isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .host (hseg hostOps1_1 hostOps1_1_sub hostOps1_1_fresh (B2 m ρ)),
    .region (reg1 m ρ) ]

theorem main_run (c : Dev nD) : main (F := F) c = Pipeline.Seg.run (segs m ρ) := (main_chain c).trans (by chain_rfl)

/-- An unscoped TensorCore reference is among those the boundaries hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-! ## What the boundaries hold at the buffers the claims read -/

/-- No item writes an argument: at the last boundary each argument's buffer holds the launch memory's contents. The
    second region does not touch it, no host stretch writes it, and the first region reads it through an input window. -/
theorem end_main_arg0 (c : Dev nD) : B4 m ρ c (Proc.devRef .tc main_arg0) = m ((c : Thread nD τ).loc main_arg0) :=
  (B4_of_ne m ρ c main_arg0 (by decide)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (B1_arr m ρ c 0).trans <| ((Stage1.dat (E0 m ρ) c).arrAt_in 0 rfl _).trans (Stage1.dat_A (E0 m ρ) c 0)
theorem end_main_arg1 (c : Dev nD) : B4 m ρ c (Proc.devRef .tc main_arg1) = m ((c : Thread nD τ).loc main_arg1) :=
  (B4_of_ne m ρ c main_arg1 (by decide)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (B1_arr m ρ c 1).trans <| ((Stage1.dat (E0 m ρ) c).arrAt_in 1 rfl _).trans (Stage1.dat_A (E0 m ρ) c 1)
theorem end_main_arg2 (c : Dev nD) : B4 m ρ c (Proc.devRef .tc main_arg2) = m ((c : Thread nD τ).loc main_arg2) :=
  (B4_of_ne m ρ c main_arg2 (by decide)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (B1_arr m ρ c 2).trans <| ((Stage1.dat (E0 m ρ) c).arrAt_in 2 rfl _).trans (Stage1.dat_A (E0 m ρ) c 2)
theorem end_main_arg3 (c : Dev nD) : B4 m ρ c (Proc.devRef .tc main_arg3) = m ((c : Thread nD τ).loc main_arg3) :=
  (B4_of_ne m ρ c main_arg3 (by decide)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (B1_arr m ρ c 3).trans <| ((Stage1.dat (E0 m ρ) c).arrAt_in 3 rfl _).trans (Stage1.dat_A (E0 m ρ) c 3)

/-- The frame: every argument's buffer ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c)⟩) (run_all m ρ)

/-- The first region's entry contents at the arguments are the launch memory's. -/
theorem entry0_arg (c : Dev nD) (b : Ref sig .tc) : E0 m ρ c b = m ((c : Thread nD τ).loc b) := rfl

/-- The hidden activations' buffer after the first region holds what its write-backs left. -/
theorem after0_hidden (c : Dev nD) : E1 m ρ c main_v0 = (Stage1.dat (E0 m ρ) c).arrAt 4 cfg0.N := B1_arr m ρ c 4

/-- The second region's input array: the host stretches pad the first region's output with the converted integer zero,
    two rows before and 7998 after. -/
theorem entry1_padded (c : Dev nD) :
    E3 m ρ c main_v1 = pad S208000x5 ![2, 0] ![7998, 0] ![0, 0] (E1 m ρ c main_v0)
      (sitofp .f32 (constantI S_ 32 0#32) : FVec F S_ .f32) pads_S200000x5_S208000x5_279980_000 h_S_ := by
  show StableHlo.after hostOps1_1 (StableHlo.after hostOps1 (B1 m ρ c)) (Proc.devRef .tc main_v1) = _
  after_results
  rfl

end Cert.KernelIdeal.Whole

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.Value.MlpRows.lean ====
import proofs.«170995_j36653250904914_1_alg».proof.Proof.Gen.KernelIdeal.Skeleton
import proofs.«170995_j36653250904914_1_alg».proof.Proof.Gen.ReferenceIdeal.Read
import proofs.«170995_j36653250904914_1_alg».proof.Proof.LibMatmul
import proofs.«170995_j36653250904914_1_alg».proof.Proof.LibLayout
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

/-- The two-layer perceptron on one block of 8000 rows, at entry (r, j), at the ideal values: the rounding to bf16 is the
    identity, each matrix-unit product into a zero accumulator is a plain sum of products against the transposed weights,
    and the bias row is the bias at j; so the entry is
    max(∑ k < 10, max(∑ l < 320, xb(r, l) · w1(k, l), 0) · w2(j, k) + b(j), 0), the zero being the value of the zero word. -/
theorem hidden_kernel_at (xb : FVec Ideal Cert.KernelIdeal.S8000x320 .f32) (w1 : FVec Ideal Cert.ReferenceIdeal.S10x320 .f32)
    (w2 : FVec Ideal Cert.ReferenceIdeal.S5x10 .f32) (b : FVec Ideal Cert.ReferenceIdeal.S5 .f32)
    (r : Fin 8000) (j : Fin 5) :
    Cert.KernelIdeal.Gen.k0_pay1 (F := Ideal) xb w1 w2 b (ix2 r j)
      = max ((∑ k : Fin 10, max (∑ l : Fin 320, xb (ix2 r l) * w1 (ix2 k l)) (Ideal.ofBits .f32 0x00000000#32)
          * w2 (ix2 j k)) + b (ix1 j)) (Ideal.ofBits .f32 0x00000000#32) := by
  unfold Cert.KernelIdeal.Gen.k0_pay1
  -- the outer maximum against the zero splat, then the sum of the second product and the bias row
  refine (maximumf_apply _ _ _).trans ?_
  refine congrArg₂ max ?_ rfl
  refine (addf_apply _ _ _).trans ?_
  refine congrArg₂ (· + ·) ?_ ?_
  · -- the second product: hidden(r, k) · w2ᵀ(k, j), summed over the 10 hidden units
    refine (Cert.Lib.Matmul.matmul_zero_apply (A := 8000) (K := 10) (C := 5) none _ _ r j).trans ?_
    refine Finset.sum_congr rfl fun k _ => ?_
    refine congrArg₂ (· * ·) ?_ ?_
    · -- the hidden unit: the first product xb(r, l) · w1ᵀ(l, k) summed over the 320 features, clipped at zero
      refine (maximumf_apply _ _ _).trans ?_
      refine congrArg₂ max ?_ rfl
      refine (Cert.Lib.Matmul.matmul_zero_apply (A := 8000) (K := 320) (C := 10) none _ _ r k).trans ?_
      refine Finset.sum_congr rfl fun l _ => ?_
      refine congrArg₂ (· * ·) rfl ?_
      exact transpose_apply [1, 0] _ _ (ix2 l k) (ix2 k l) (fun a => match a with
        | ⟨0, _⟩ => rfl
        | ⟨1, _⟩ => rfl)
    · exact transpose_apply [1, 0] _ _ (ix2 k j) (ix2 j k) (fun a => match a with
        | ⟨0, _⟩ => rfl
        | ⟨1, _⟩ => rfl)
  · -- the bias, cast to one row and repeated down the 8000 rows, is b(j) at (r, j)
    exact Cert.Lib.Layout.bcastRow_apply (A := 8000) (B := 5) b _ _ r j

open Cert.ReferenceIdeal.Read in
/-- The reference's second clipped layer at entry (n, j), at the ideal values: each contraction is the sum of products
    against the transposed weights, each clip is a maximum against the value of the zero word, and the bias broadcast
    twice is the bias at j; so the entry is
    max(∑ k < 10, max(∑ l < 320, x(n, l) · w1(k, l), 0) · w2(j, k) + b(j), 0). -/
theorem hidden_ref_at (x : FVec Ideal Cert.ReferenceIdeal.S200000x320 .f32) (w1 : FVec Ideal Cert.ReferenceIdeal.S10x320 .f32)
    (w2 : FVec Ideal Cert.ReferenceIdeal.S5x10 .f32) (b : FVec Ideal Cert.ReferenceIdeal.S5 .f32)
    (n : Fin 200000) (j : Fin 5) :
    Cert.ReferenceIdeal.Read.val_main_v8 (F := Ideal) x w1 w2 b (ix2 n j)
      = max ((∑ k : Fin 10, max (∑ l : Fin 320, x (ix2 n l) * w1 (ix2 k l)) (Ideal.ofBits .f32 0x00000000#32)
          * w2 (ix2 j k)) + b (ix1 j)) (Ideal.ofBits .f32 0x00000000#32) := by
  -- the outer clip, the sum with the bias, the second contraction, the bias through its two broadcasts, the zero splat
  rw [val_main_v8_apply, val_main_v7_apply, val_main_v4_apply, val_main_v6_apply, val_main_v5_apply,
    val_main_call1_v0_apply]
  refine congrArg₂ max (congrArg₂ (· + ·) ?_ ?_) rfl
  · refine Finset.sum_congr rfl fun k _ => ?_
    -- the hidden unit: the first contraction clipped at zero; the second weight through its transpose
    rw [val_main_v2_apply, val_main_v1_apply, val_main_v3_apply, val_main_call0_v0_apply]
    refine congrArg₂ (· * ·) (congrArg₂ max ?_ rfl) ?_
    · refine Finset.sum_congr rfl fun l _ => ?_
      rw [val_main_v0_apply]
      refine congrArg₂ (· * ·) (congrArg x ?_) (congrArg w1 ?_)
      · exact funext fun a => match a with
          | ⟨0, _⟩ => rfl
          | ⟨1, _⟩ => rfl
      · exact funext fun a => match a with
          | ⟨0, _⟩ => rfl
          | ⟨1, _⟩ => rfl
    · exact congrArg w2 (funext fun a => match a with
        | ⟨0, _⟩ => rfl
        | ⟨1, _⟩ => rfl)
  · exact congrArg b (funext fun a => match a with
      | ⟨0, _⟩ => rfl)

theorem mlp_rows (x : FVec Ideal Cert.ReferenceIdeal.S200000x320 .f32) (w1 : FVec Ideal Cert.ReferenceIdeal.S10x320 .f32)
    (w2 : FVec Ideal Cert.ReferenceIdeal.S5x10 .f32) (b : FVec Ideal Cert.ReferenceIdeal.S5 .f32)
    (xb : FVec Ideal Cert.KernelIdeal.S8000x320 .f32) (base : Nat) (hbase : base + 8000 ≤ 200000)
    (hxb : ∀ (r : Fin 8000) (l : Fin 320), xb (ix2 r l) = x (ix2 ⟨base + r.val, by omega⟩ l))
    (r : Fin 8000) (j : Fin 5) :
    Cert.KernelIdeal.Gen.k0_pay1 (F := Ideal) xb w1 w2 b (ix2 r j)
      = Cert.ReferenceIdeal.Read.val_main_v8 (F := Ideal) x w1 w2 b (ix2 ⟨base + r.val, by omega⟩ j) := by
  -- both sides are the same double sum; the block's row r is the array's row base + r, entry by entry
  rw [hidden_kernel_at, hidden_ref_at]
  refine congrArg₂ max (congrArg₂ (· + ·) (Finset.sum_congr rfl fun k _ => ?_) rfl) rfl
  refine congrArg₂ (· * ·) (congrArg₂ max (Finset.sum_congr rfl fun l _ => ?_) rfl) rfl
  rw [hxb r l]

end Cert.Bridge

end
-- ==== Proof.Value.Hidden.lean ====
import proofs.«170995_j36653250904914_1_alg».proof.Proof.FrameIdeal.Mlp
import proofs.«170995_j36653250904914_1_alg».proof.Proof.FrameIdeal.Window
import proofs.«170995_j36653250904914_1_alg».proof.Proof.Value.MlpRows
import proofs.«170995_j36653250904914_1_alg».proof.Proof.Gen.ReferenceIdeal.Read
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.KernelIdeal

section

/-- Both offsets of a whole-buffer rectangle of rank two are zero; -/
theorem hidden_zeros2 : (![0, 0] : Fin 2 → Nat) = fun _ => 0 := funext fun a => by fin_cases a <;> rfl
/-- and the one offset of a rank-one rectangle. -/
theorem hidden_zeros1 : (![0] : Fin 1 → Nat) = fun _ => 0 := funext fun a => by fin_cases a; rfl

/-- The block indices over the 25 grid points: the rows' window and the output's window sit at block (t, 0); the two
    weight matrices and the bias sit at block 0 on every axis. -/
theorem hidden_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b)) (c : Dev nD)

/-- The rows' block at point t, at (p, l), is the array at row 8000 t + p, column l. -/
theorem hidden_blk0_apply (t : Fin cfg0.N) (y : S8000x320.Idx) (k : S200000x320.Idx)
    (hk0 : (k 0).val = 8000 * t.val + (y 0).val) (hk1 : (k 1).val = (y 1).val) :
    (Stage1.blk (F := Ideal) V c 0 t : Vec Ideal S8000x320 .f32) y = (V c main_arg0 : S200000x320.Idx → Elt Ideal .f32) k := by
  obtain ⟨e0, e1, -⟩ := hidden_index_facts t
  unfold Stage1.blk
  rw [View.read_apply]
  show V c main_arg0 _ = V c main_arg0 _
  congr 1
  funext a
  apply Fin.ext
  match a with
  | ⟨0, _⟩ => show win0_0.index t 0 * 8000 + 1 * (y 0).val = (k 0).val; rw [e0, hk0]; omega
  | ⟨1, _⟩ => show win0_0.index t 1 * 320 + 1 * (y 1).val = (k 1).val; rw [e1, hk1]; omega

/-- The first weight matrix's block is the matrix. -/
theorem hidden_blk1_eq (t : Fin cfg0.N) :
    (Stage1.blk (F := Ideal) V c 1 t : Vec Ideal S10x320 .f32) = (V c main_arg1 : S10x320.Idx → Elt Ideal .f32) := by
  obtain ⟨-, -, e0, e1, -⟩ := hidden_index_facts t
  funext y
  unfold Stage1.blk
  rw [View.read_apply]
  show V c main_arg1 _ = V c main_arg1 _
  congr 1
  funext a
  apply Fin.ext
  match a with
  | ⟨0, _⟩ => show win0_1.index t 0 * 10 + 1 * (y 0).val = (y 0).val; rw [e0]; omega
  | ⟨1, _⟩ => show win0_1.index t 1 * 320 + 1 * (y 1).val = (y 1).val; rw [e1]; omega

/-- The second weight matrix's block is the matrix. -/
theorem hidden_blk2_eq (t : Fin cfg0.N) :
    (Stage1.blk (F := Ideal) V c 2 t : Vec Ideal S5x10 .f32) = (V c main_arg2 : S5x10.Idx → Elt Ideal .f32) := by
  obtain ⟨-, -, -, -, e0, e1, -⟩ := hidden_index_facts t
  funext y
  unfold Stage1.blk
  rw [View.read_apply]
  show V c main_arg2 _ = V c main_arg2 _
  congr 1
  funext a
  apply Fin.ext
  match a with
  | ⟨0, _⟩ => show win0_2.index t 0 * 5 + 1 * (y 0).val = (y 0).val; rw [e0]; omega
  | ⟨1, _⟩ => show win0_2.index t 1 * 10 + 1 * (y 1).val = (y 1).val; rw [e1]; omega

/-- The bias's block is the bias. -/
theorem hidden_blk3_eq (t : Fin cfg0.N) :
    (Stage1.blk (F := Ideal) V c 3 t : Vec Ideal S5 .f32) = (V c main_arg3 : S5.Idx → Elt Ideal .f32) := by
  obtain ⟨-, -, -, -, -, -, e0, -⟩ := hidden_index_facts t
  funext y
  unfold Stage1.blk
  rw [View.read_apply]
  show V c main_arg3 _ = V c main_arg3 _
  congr 1
  funext a
  apply Fin.ext
  match a with
  | ⟨0, _⟩ => show win0_3.index t 0 * 5 + 1 * (y 0).val = (y 0).val; rw [e0]; omega

/-- One point's block of hidden activations against the reference's, entry by entry: when the block's rows are the
    array's rows from `base` on, entry (p, q) of the block's activations is entry (base + p, q) of the reference's. -/
theorem hidden_point_eq (x : FVec Ideal Cert.ReferenceIdeal.S200000x320 .f32) (w1 : FVec Ideal Cert.ReferenceIdeal.S10x320 .f32)
    (w2 : FVec Ideal Cert.ReferenceIdeal.S5x10 .f32) (b : FVec Ideal Cert.ReferenceIdeal.S5 .f32)
    (xb : FVec Ideal Cert.KernelIdeal.S8000x320 .f32) (base : Nat) (hbase : base + 8000 ≤ 200000)
    (hxb : ∀ (r : Fin 8000) (l : Fin 320), xb (ix2 r l) = x (ix2 ⟨base + r.val, by omega⟩ l))
    (y : S8000x5.Idx) (i : Cert.ReferenceIdeal.S200000x5.Idx)
    (hi0 : (i 0).val = base + (y 0).val) (hi1 : (i 1).val = (y 1).val) :
    Cert.KernelIdeal.Gen.k0_pay1 (F := Ideal) xb w1 w2 b y
      = Cert.ReferenceIdeal.Read.val_main_v8 (F := Ideal) x w1 w2 b i := by
  obtain ⟨p, q, rfl⟩ : ∃ (p : Fin 8000) (q : Fin 5), y = ix2 p q := ⟨y 0, y 1, eq_ix2 y⟩
  have hi : i = ix2 ⟨base + p.val, by omega⟩ q := by
    funext a
    apply Fin.ext
    match a with
    | ⟨0, _⟩ => exact hi0
    | ⟨1, _⟩ => exact hi1
  rw [hi]
  exact mlp_rows x w1 w2 b xb base hbase hxb p q

/-- What point t writes back is block t of the reference's hidden activations of the four input arrays: the body stores
    the activations of the four loaded blocks, the three small blocks are their arrays, the rows' block holds the
    array's rows from 8000 t on, and the output's block sits at rows 8000 t on as well. -/
theorem hidden_flushed_eq (t : Fin cfg0.N) :
    (Stage1.dat (F := Ideal) V c).flushed 4 t
      = ((cfg0.win 4).blk t).view.read (Elt Ideal)
          (Cert.ReferenceIdeal.Read.val_main_v8 (F := Ideal) (V c main_arg0) (V c main_arg1) (V c main_arg2) (V c main_arg3)) := by
  show (cfg0.win 4).cut (grid0.coords t) ((Stage1.dat V c).after 4 t) = _
  rw [Stage1.after_4]
  unfold Stage1.stored
  rw [View.canon_unit_zero hidden_zeros2]
  simp only [View.ld_unit_zero (S := S8000x320) hidden_zeros2, View.ld_unit_zero (S := S10x320) hidden_zeros2,
    View.ld_unit_zero (S := S5x10) hidden_zeros2, View.ld_unit_zero (S := S5) hidden_zeros1]
  rw [hidden_blk1_eq, hidden_blk2_eq, hidden_blk3_eq]
  obtain ⟨-, -, -, -, -, -, -, e0, e1⟩ := hidden_index_facts t
  have ht : t.val < 25 := t.isLt
  funext y
  show Gen.k0_pay1 (F := Ideal) (Stage1.blk V c 0 t) (V c main_arg1) (V c main_arg2) (V c main_arg3) y
    = Cert.ReferenceIdeal.Read.val_main_v8 (F := Ideal) (V c main_arg0) (V c main_arg1) (V c main_arg2) (V c main_arg3)
        (((cfg0.win 4).blk t).view.emb y)
  refine hidden_point_eq (V c main_arg0) (V c main_arg1) (V c main_arg2) (V c main_arg3) (Stage1.blk V c 0 t) (8000 * t.val)
    (by omega) (fun r l => hidden_blk0_apply V c t (ix2 r l) (ix2 ⟨8000 * t.val + r.val, by omega⟩ l) rfl rfl) y _ ?_ ?_
  · show win0_4.index t 0 * 8000 + 1 * (y 0).val = 8000 * t.val + (y 0).val
    rw [e0]; omega
  · show win0_4.index t 1 * 5 + 1 * (y 1).val = (y 1).val
    rw [e1]; omega

/-- An index of the output array is in point t's block iff each coordinate is in the block's range on its axis. -/
theorem hidden_mem_blk (t : Fin cfg0.N) (i : S200000x5.Idx) :
    i ∈ ((cfg0.win 4).blk t).view.set ↔ ∀ a : Fin 2, win0_4.index t a * S8000x5.size a ≤ (i a).val
      ∧ (i a).val < win0_4.index t a * S8000x5.size a + S8000x5.size a := by
  show i ∈ ((View.whole main_v0).slice (win0_4.rect t)).set ↔ _
  rw [View.set_slice_whole, Rect.mem_set_unit]
  exact Iff.rfl

/-- The 25 blocks of 8000 rows tile the 200000 rows: row n lies in the block of point n / 8000, and every point writes
    its block back. -/
theorem hidden_cover (i : S200000x5.Idx) :
    ∃ t : Fin cfg0.N, (cfg0.win 4).flush t = true ∧ i ∈ ((cfg0.win 4).blk t).view.set := by
  have hi0 : (i 0).val < 200000 := (i 0).isLt
  have hi1 : (i 1).val < 5 := (i 1).isLt
  obtain ⟨t, ht⟩ : ∃ t : Fin cfg0.N, t.val = (i 0).val / 8000 :=
    ⟨⟨(i 0).val / 8000, by show (i 0).val / 8000 < 25; omega⟩, rfl⟩
  obtain ⟨-, -, -, -, -, -, -, e0, e1⟩ := hidden_index_facts t
  refine ⟨t, Gen.flush0_4 t, ?_⟩
  rw [hidden_mem_blk]
  intro a
  match a with
  | ⟨0, _⟩ =>
    show win0_4.index t 0 * 8000 ≤ (i 0).val ∧ (i 0).val < win0_4.index t 0 * 8000 + 8000
    rw [e0, ht]; omega
  | ⟨1, _⟩ =>
    show win0_4.index t 1 * 5 ≤ (i 1).val ∧ (i 1).val < win0_4.index t 1 * 5 + 5
    rw [e1]; omega

end

/-- The first region leaves in its output array the reference's hidden activations of the region's four input arrays. -/
theorem hidden_final (V : (c : Dev nD) → (b : Ref sig .tc) → Buf (Elt Ideal) ((c : Thread nD τ).loc b)) (c : Dev nD) :
    (Stage1.dat (F := Ideal) V c).arrAt 4 cfg0.N
      = Cert.ReferenceIdeal.Read.val_main_v8 (F := Ideal) (V c main_arg0) (V c main_arg1) (V c main_arg2) (V c main_arg3) := by
  -- every point writes back its block of the one function, and the 25 blocks tile the array
  exact (Stage1.dat (F := Ideal) V c).arrAt_eq_of_cover 4 _ (fun t _ => hidden_flushed_eq V c t) hidden_cover

end Cert.Bridge

end
-- ==== Proof.Value.WindowRows.lean ====
import proofs.«170995_j36653250904914_1_alg».proof.Proof.Gen.KernelIdeal.Skeleton
import Idealize.ShloMosaic.Lib.ValueIdx
import Idealize.ShloMosaic.Lib.Pipeline.Value
import Idealize.ShloMosaic.Lib.KernelVsHost

noncomputable section

namespace Cert.Bridge

open Idealize.ShloMosaic Idealize.ShloMosaic.ValueIdx

/-- A unit-stride slice of an 8004-row array at row offset `k`, read at (r, c), is the array at (r + k, c). -/
private theorem slice_at {α : Type} (k : Nat) (x : Cert.KernelIdeal.S8004x5.Idx → α)
    (h : Cert.KernelIdeal.S8004x5.Slices ![k, 0] Cert.KernelIdeal.S8000x5) (r : Fin 8000) (c : Fin 5)
    (hk : r.val + k < 8004) :
    extractStridedSlice Cert.KernelIdeal.S8000x5 ![k, 0] x h (ix2 r c) = x (ix2 ⟨r.val + k, hk⟩ c) := by
  refine extractStridedSlice_apply _ x h (ix2 r c) (ix2 ⟨r.val + k, hk⟩ c) fun a => ?_
  match a with
  | ⟨0, _⟩ => show r.val + k = k + r.val; omega
  | ⟨1, _⟩ => show c.val = 0 + c.val; omega

/-- The 8000 rows of `x₁` followed by the 4 rows of `x₂`, read at (m, c): `x₁` at (m, c) while m < 8000, and
    `x₂` at (m - 8000, c) from row 8000 on. -/
private theorem rows_at {α : Type} (x₁ : Cert.KernelIdeal.S8000x5.Idx → α) (x₂ : Cert.KernelIdeal.S4x5.Idx → α)
    (h : Shape.Concatenates [Cert.KernelIdeal.S8000x5, Cert.KernelIdeal.S4x5] Cert.KernelIdeal.S8004x5 0)
    (m : Fin 8004) (c : Fin 5) :
    concatenate Cert.KernelIdeal.S8004x5 0 [⟨Cert.KernelIdeal.S8000x5, x₁⟩, ⟨Cert.KernelIdeal.S4x5, x₂⟩] h (ix2 m c)
      = if hm : m.val < 8000 then x₁ (ix2 ⟨m.val, hm⟩ c) else x₂ (ix2 ⟨m.val - 8000, by omega⟩ c) := by
  by_cases hm : m.val < 8000
  · rw [dif_pos hm]
    refine concatenate_pair_apply_left (0 : Fin 2) x₁ x₂ h (ix2 m c) rfl (ix2 ⟨m.val, hm⟩ c) fun b => ?_
    match b with
    | ⟨0, _⟩ => rfl
    | ⟨1, _⟩ => rfl
  · rw [dif_neg hm]
    refine concatenate_pair_apply_right (0 : Fin 2) x₁ x₂ h (ix2 m c) rfl rfl
      (ix2 ⟨m.val - 8000, by omega⟩ c) (fun b hb => ?_) ?_
    · match b with
      | ⟨0, _⟩ => exact absurd rfl hb
      | ⟨1, _⟩ => rfl
    · show (m.val - 8000) + 8000 = m.val; omega

/-- Piece `k` of a concatenation of 5-column pieces along the columns, read at (r, 5k + c), is that piece at (r, c). -/
private theorem cols_at {α : Type} (xs : List ((s : Shape) × (s.Idx → α)))
    (h : Shape.Concatenates (xs.map (·.1)) Cert.KernelIdeal.S8000x25 1) (r : Fin 8000) (c : Fin 5)
    (k : Nat) (hk : k < xs.length) (x : Cert.KernelIdeal.S8000x5.Idx → α) (hxk : xs[k] = ⟨Cert.KernelIdeal.S8000x5, x⟩)
    (hpre : (((xs.take k).map (·.1)).map fun s =>
      if h : s.rank = Cert.KernelIdeal.S8000x25.rank then s.size ((1 : Fin 2).cast h.symm) else 0).sum = 5 * k)
    (hc : 5 * k + c.val < 25) :
    concatenate Cert.KernelIdeal.S8000x25 1 xs h (ix2 r ⟨5 * k + c.val, hc⟩) = x (ix2 r c) := by
  refine concatenate_apply_piece (1 : Fin 2) xs h (ix2 r ⟨5 * k + c.val, hc⟩) k hk Cert.KernelIdeal.S8000x5 x hxk rfl
    (5 * k) hpre (ix2 r c) (fun b hb => ?_) ?_
  · match b with
    | ⟨0, _⟩ => rfl
    | ⟨1, _⟩ => exact absurd rfl hb
  · rfl

/-- The window at row offset `k`: rows r + k of `cur` followed by `halo`. -/
private theorem window_piece {α : Type} (cur : Cert.KernelIdeal.S8000x5.Idx → α) (halo : Cert.KernelIdeal.S4x5.Idx → α)
    (hc : Shape.Concatenates [Cert.KernelIdeal.S8000x5, Cert.KernelIdeal.S4x5] Cert.KernelIdeal.S8004x5 0)
    (k : Nat) (hk4 : k ≤ 4) (hs : Cert.KernelIdeal.S8004x5.Slices ![k, 0] Cert.KernelIdeal.S8000x5)
    (r : Fin 8000) (c : Fin 5) :
    extractStridedSlice Cert.KernelIdeal.S8000x5 ![k, 0]
        (concatenate Cert.KernelIdeal.S8004x5 0 [⟨Cert.KernelIdeal.S8000x5, cur⟩, ⟨Cert.KernelIdeal.S4x5, halo⟩] hc) hs (ix2 r c)
      = if h : r.val + k < 8000 then cur (ix2 ⟨r.val + k, h⟩ c) else halo (ix2 ⟨r.val + k - 8000, by omega⟩ c) := by
  have hm : r.val + k < 8004 := by omega
  refine (slice_at k _ hs r c hm).trans ?_
  exact rows_at cur halo hc ⟨r.val + k, hm⟩ c

theorem window_rows {F : FTy → Type} [FloatOps F] (cur : FVec F Cert.KernelIdeal.S8000x5 .f32) (halo : FVec F Cert.KernelIdeal.S4x5 .f32)
    (r : Fin 8000) (k c : Fin 5) :
    Cert.KernelIdeal.Gen.k1_pay1 (F := F) cur halo (ix2 r ⟨5 * k.val + c.val, by omega⟩)
      = if h : r.val + k.val < 8000 then cur (ix2 ⟨r.val + k.val, h⟩ c) else halo (ix2 ⟨r.val + k.val - 8000, by omega⟩ c) := by
  unfold Cert.KernelIdeal.Gen.k1_pay1
  rw [shapeCast_self, shapeCast_self]
  match k with
  | ⟨0, _⟩ =>
    refine (cols_at _ _ r c 0 (by show (0 : Nat) < 5; omega) _ rfl rfl _).trans ?_
    exact window_piece cur halo _ 0 (by omega) _ r c
  | ⟨1, _⟩ =>
    refine (cols_at _ _ r c 1 (by show (1 : Nat) < 5; omega) _ rfl rfl _).trans ?_
    exact window_piece cur halo _ 1 (by omega) _ r c
  | ⟨2, _⟩ =>
    refine (cols_at _ _ r c 2 (by show (2 : Nat) < 5; omega) _ rfl rfl _).trans ?_
    exact window_piece cur halo _ 2 (by omega) _ r c
  | ⟨3, _⟩ =>
    refine (cols_at _ _ r c 3 (by show (3 : Nat) < 5; omega) _ rfl rfl _).trans ?_
    exact window_piece cur halo _ 3 (by omega) _ r c
  | ⟨4, _⟩ =>
    refine (cols_at _ _ r c 4 (by show (4 : Nat) < 5; omega) _ rfl rfl _).trans ?_
    exact window_piece cur halo _ 4 (by omega) _ r c

theorem kpad_at {F : FTy → Type} [FloatOps F] (t : FVec F Cert.KernelIdeal.S200000x5 .f32) (z : FVec F Cert.KernelIdeal.S_ .f32)
    (j : Fin 208000) (c : Fin 5) :
    pad Cert.KernelIdeal.S208000x5 ![2, 0] ![7998, 0] ![0, 0] t z Cert.KernelIdeal.Gen.pads_S200000x5_S208000x5_279980_000 Cert.KernelIdeal.Gen.h_S_ (ix2 j c)
      = if h : 2 ≤ j.val ∧ j.val < 200002 then t (ix2 ⟨j.val - 2, by omega⟩ c) else z (Shape.Idx.first Cert.KernelIdeal.Gen.h_S_) := by
  by_cases h : 2 ≤ j.val ∧ j.val < 200002
  · rw [dif_pos h]
    refine pad_apply_of_inside _ _ _ t z _ _ (ix2 j c) (ix2 ⟨j.val - 2, by omega⟩ c) fun a => ?_
    match a with
    | ⟨0, _⟩ => show j.val = 2 + (j.val - 2) * (0 + 1); omega
    | ⟨1, _⟩ => show c.val = 0 + c.val * (0 + 1); omega
  · rw [dif_neg h]
    refine pad_apply_of_not_inside _ _ _ t z _ _ (ix2 j c) (0 : Fin 2) fun hin => h ?_
    have h1 : 2 ≤ j.val := hin.1
    have h3 : (j.val - 2) / (0 + 1) < 200000 := hin.2.2
    refine ⟨h1, ?_⟩
    rw [Nat.div_one] at h3
    omega

end Cert.Bridge

end
-- ==== Proof.Value.RefAt.lean ====
import proofs.«170995_j36653250904914_1_alg».proof.Proof.Gen.ReferenceIdeal.Read
import Idealize.ShloMosaic.Lib.ValueIdx
import Idealize.ShloMosaic.Lib.Pipeline.Value
import Idealize.ShloMosaic.Lib.KernelVsHost

noncomputable section

namespace Cert.Bridge

open Idealize.ShloMosaic Idealize.ShloMosaic.ValueIdx

section Stages

open Cert.ReferenceIdeal Cert.ReferenceIdeal.Gen Cert.ReferenceIdeal.Read

variable {F : FTy → Type} [FloatOps F]

/-- The reshape [200000,5,5] -> [200000,25] reads entry (n, 5k+c) of its result from entry (n, k, c) of its operand:
    the flat position 25n + 5k + c has quotient n by 25, middle digit k and last digit c in base 5. -/
theorem ref_idx_reshape (n : Fin 200000) (k c : Fin 5) :
    idx_main_v21 (ix2 n (⟨5 * k.val + c.val, by omega⟩ : Fin 25)) = ix3 n k c := by
  funext a
  match a with
  | ⟨0, _⟩ => exact Fin.ext (by show (n.val * 25 + (5 * k.val + c.val)) / 25 = n.val; omega)
  | ⟨1, _⟩ => exact Fin.ext (by show (n.val * 25 + (5 * k.val + c.val)) / 5 % 5 = k.val; omega)
  | ⟨2, _⟩ => exact Fin.ext (by show (n.val * 25 + (5 * k.val + c.val)) % 5 = c.val; omega)

/-- The padded array at a row that holds one of the operand's rows (row 2 + p): the operand's row p. -/
theorem ref_padded_inside (x : FVec F S200000x320 .f32) (w1 : FVec F S10x320 .f32) (w2 : FVec F S5x10 .f32) (b : FVec F S5 .f32)
    (j : S200004x5.Idx) (p : Fin 200000) (c : Fin 5) (h0 : (j 0).val = 2 + p.val) (h1 : (j 1).val = c.val) :
    val_main_v9 (F := F) x w1 w2 b j = val_main_v8 (F := F) x w1 w2 b (ix2 p c) := by
  unfold val_main_v9
  refine pad_apply_of_inside ![2, 0] ![2, 0] ![0, 0] _ _ pads_S200000x5_S200004x5_220_000 h_S_ j (ix2 p c) ?_
  intro a
  match a with
  | ⟨0, _⟩ => show (j 0).val = 2 + p.val * (0 + 1); omega
  | ⟨1, _⟩ => show (j 1).val = 0 + c.val * (0 + 1); omega

/-- The padded array at a row in the low padding (rows 0, 1) or the high padding (rows 200002, 200003): the padding
    value, the integer zero converted to a float. -/
theorem ref_padded_outside (x : FVec F S200000x320 .f32) (w1 : FVec F S10x320 .f32) (w2 : FVec F S5x10 .f32) (b : FVec F S5 .f32)
    (j : S200004x5.Idx) (h : (j 0).val < 2 ∨ 200002 ≤ (j 0).val) :
    val_main_v9 (F := F) x w1 w2 b j
      = (sitofp .f32 (constantI S_ 32 0#32) : FVec F S_ .f32) (Shape.Idx.first h_S_) := by
  unfold val_main_v9
  refine (pad_apply_of_not_inside ![2, 0] ![2, 0] ![0, 0] _ _ pads_S200000x5_S200004x5_220_000 h_S_ j
    (⟨0, by decide⟩ : Fin S200000x5.rank) ?_).trans rfl
  show ¬(2 ≤ (j 0).val ∧ ((j 0).val - 2) % (0 + 1) = 0 ∧ ((j 0).val - 2) / (0 + 1) < 200000)
  omega

/-- The five shifted copies joined along the middle axis: entry (n, k, c) of the concatenation is entry (n, 0, c) of
    piece k (the pieces before it have extent one each, k in all), which is the broadcast of the slice of the padded
    array at row offset k, so it is the padded array at row n + k, column c. -/
theorem ref_joined_at (x : FVec F S200000x320 .f32) (w1 : FVec F S10x320 .f32) (w2 : FVec F S5x10 .f32) (b : FVec F S5 .f32)
    (n : Fin 200000) (k c : Fin 5) :
    val_main_v20 (F := F) x w1 w2 b (ix3 n k c)
      = val_main_v9 (F := F) x w1 w2 b (ix2 (⟨n.val + k.val, by omega⟩ : Fin 200004) c) := by
  match k with
  | ⟨0, _⟩ =>
    unfold val_main_v20
    refine (concatenate_apply_piece (⟨1, by decide⟩ : Fin S200000x5x5.rank)
      [⟨S200000x1x5, val_main_v15 (F := F) x w1 w2 b⟩, ⟨S200000x1x5, val_main_v16 (F := F) x w1 w2 b⟩, ⟨S200000x1x5, val_main_v17 (F := F) x w1 w2 b⟩, ⟨S200000x1x5, val_main_v18 (F := F) x w1 w2 b⟩, ⟨S200000x1x5, val_main_v19 (F := F) x w1 w2 b⟩]
      concatenates_S200000x1x5_S200000x1x5_S200000x1x5_S200000x1x5_S200000x1x5_S200000x5x5_d1 (ix3 n (⟨0, by decide⟩ : Fin 5) c)
      0 (by show (0 : Nat) < 5; decide) S200000x1x5 (val_main_v15 (F := F) x w1 w2 b) rfl rfl 0 rfl (ix3 n (0 : Fin 1) c) ?_ rfl).trans ?_
    · intro d hd
      match d with
      | ⟨0, _⟩ => rfl
      | ⟨1, _⟩ => exact absurd rfl hd
      | ⟨2, _⟩ => rfl
    · rw [val_main_v15_apply, val_main_v10_apply]
      refine congrArg _ (funext fun a => ?_)
      match a with
      | ⟨0, _⟩ => exact Fin.ext (by show n.val = n.val + 0; omega)
      | ⟨1, _⟩ => rfl
  | ⟨1, _⟩ =>
    unfold val_main_v20
    refine (concatenate_apply_piece (⟨1, by decide⟩ : Fin S200000x5x5.rank)
      [⟨S200000x1x5, val_main_v15 (F := F) x w1 w2 b⟩, ⟨S200000x1x5, val_main_v16 (F := F) x w1 w2 b⟩, ⟨S200000x1x5, val_main_v17 (F := F) x w1 w2 b⟩, ⟨S200000x1x5, val_main_v18 (F := F) x w1 w2 b⟩, ⟨S200000x1x5, val_main_v19 (F := F) x w1 w2 b⟩]
      concatenates_S200000x1x5_S200000x1x5_S200000x1x5_S200000x1x5_S200000x1x5_S200000x5x5_d1 (ix3 n (⟨1, by decide⟩ : Fin 5) c)
      1 (by show (1 : Nat) < 5; decide) S200000x1x5 (val_main_v16 (F := F) x w1 w2 b) rfl rfl 1 rfl (ix3 n (0 : Fin 1) c) ?_ rfl).trans ?_
    · intro d hd
      match d with
      | ⟨0, _⟩ => rfl
      | ⟨1, _⟩ => exact absurd rfl hd
      | ⟨2, _⟩ => rfl
    · rw [val_main_v16_apply, val_main_v11_apply]
      refine congrArg _ (funext fun a => ?_)
      match a with
      | ⟨0, _⟩ => exact Fin.ext (by show 1 + n.val = n.val + 1; omega)
      | ⟨1, _⟩ => rfl
  | ⟨2, _⟩ =>
    unfold val_main_v20
    refine (concatenate_apply_piece (⟨1, by decide⟩ : Fin S200000x5x5.rank)
      [⟨S200000x1x5, val_main_v15 (F := F) x w1 w2 b⟩, ⟨S200000x1x5, val_main_v16 (F := F) x w1 w2 b⟩, ⟨S200000x1x5, val_main_v17 (F := F) x w1 w2 b⟩, ⟨S200000x1x5, val_main_v18 (F := F) x w1 w2 b⟩, ⟨S200000x1x5, val_main_v19 (F := F) x w1 w2 b⟩]
      concatenates_S200000x1x5_S200000x1x5_S200000x1x5_S200000x1x5_S200000x1x5_S200000x5x5_d1 (ix3 n (⟨2, by decide⟩ : Fin 5) c)
      2 (by show (2 : Nat) < 5; decide) S200000x1x5 (val_main_v17 (F := F) x w1 w2 b) rfl rfl 2 rfl (ix3 n (0 : Fin 1) c) ?_ rfl).trans ?_
    · intro d hd
      match d with
      | ⟨0, _⟩ => rfl
      | ⟨1, _⟩ => exact absurd rfl hd
      | ⟨2, _⟩ => rfl
    · rw [val_main_v17_apply, val_main_v12_apply]
      refine congrArg _ (funext fun a => ?_)
      match a with
      | ⟨0, _⟩ => exact Fin.ext (by show 2 + n.val = n.val + 2; omega)
      | ⟨1, _⟩ => rfl
  | ⟨3, _⟩ =>
    unfold val_main_v20
    refine (concatenate_apply_piece (⟨1, by decide⟩ : Fin S200000x5x5.rank)
      [⟨S200000x1x5, val_main_v15 (F := F) x w1 w2 b⟩, ⟨S200000x1x5, val_main_v16 (F := F) x w1 w2 b⟩, ⟨S200000x1x5, val_main_v17 (F := F) x w1 w2 b⟩, ⟨S200000x1x5, val_main_v18 (F := F) x w1 w2 b⟩, ⟨S200000x1x5, val_main_v19 (F := F) x w1 w2 b⟩]
      concatenates_S200000x1x5_S200000x1x5_S200000x1x5_S200000x1x5_S200000x1x5_S200000x5x5_d1 (ix3 n (⟨3, by decide⟩ : Fin 5) c)
      3 (by show (3 : Nat) < 5; decide) S200000x1x5 (val_main_v18 (F := F) x w1 w2 b) rfl rfl 3 rfl (ix3 n (0 : Fin 1) c) ?_ rfl).trans ?_
    · intro d hd
      match d with
      | ⟨0, _⟩ => rfl
      | ⟨1, _⟩ => exact absurd rfl hd
      | ⟨2, _⟩ => rfl
    · rw [val_main_v18_apply, val_main_v13_apply]
      refine congrArg _ (funext fun a => ?_)
      match a with
      | ⟨0, _⟩ => exact Fin.ext (by show 3 + n.val = n.val + 3; omega)
      | ⟨1, _⟩ => rfl
  | ⟨4, _⟩ =>
    unfold val_main_v20
    refine (concatenate_apply_piece (⟨1, by decide⟩ : Fin S200000x5x5.rank)
      [⟨S200000x1x5, val_main_v15 (F := F) x w1 w2 b⟩, ⟨S200000x1x5, val_main_v16 (F := F) x w1 w2 b⟩, ⟨S200000x1x5, val_main_v17 (F := F) x w1 w2 b⟩, ⟨S200000x1x5, val_main_v18 (F := F) x w1 w2 b⟩, ⟨S200000x1x5, val_main_v19 (F := F) x w1 w2 b⟩]
      concatenates_S200000x1x5_S200000x1x5_S200000x1x5_S200000x1x5_S200000x1x5_S200000x5x5_d1 (ix3 n (⟨4, by decide⟩ : Fin 5) c)
      4 (by show (4 : Nat) < 5; decide) S200000x1x5 (val_main_v19 (F := F) x w1 w2 b) rfl rfl 4 rfl (ix3 n (0 : Fin 1) c) ?_ rfl).trans ?_
    · intro d hd
      match d with
      | ⟨0, _⟩ => rfl
      | ⟨1, _⟩ => exact absurd rfl hd
      | ⟨2, _⟩ => rfl
    · rw [val_main_v19_apply, val_main_v14_apply]
      refine congrArg _ (funext fun a => ?_)
      match a with
      | ⟨0, _⟩ => exact Fin.ext (by show 4 + n.val = n.val + 4; omega)
      | ⟨1, _⟩ => rfl

end Stages

/-- The reference's result at row n, column 5k+c is the hidden activation at row n+k-2 when that row exists, and the
    padding value otherwise: reshape, then piece k of the concatenation, then the slice at offset k of the padded array. -/
theorem ref_at {F : FTy → Type} [FloatOps F] (x : FVec F Cert.ReferenceIdeal.S200000x320 .f32) (w1 : FVec F Cert.ReferenceIdeal.S10x320 .f32)
    (w2 : FVec F Cert.ReferenceIdeal.S5x10 .f32) (b : FVec F Cert.ReferenceIdeal.S5 .f32) (n : Fin 200000) (k c : Fin 5) :
    Cert.ReferenceIdeal.Read.val_main_v21 (F := F) x w1 w2 b (ix2 n ⟨5 * k.val + c.val, by omega⟩)
      = if h : 2 ≤ n.val + k.val ∧ n.val + k.val < 200002 then Cert.ReferenceIdeal.Read.val_main_v8 (F := F) x w1 w2 b (ix2 ⟨n.val + k.val - 2, by omega⟩ c)
        else (sitofp .f32 (constantI Cert.ReferenceIdeal.S_ 32 0#32) : FVec F Cert.ReferenceIdeal.S_ .f32) (Shape.Idx.first Cert.ReferenceIdeal.Gen.h_S_) := by
  refine (Cert.ReferenceIdeal.Read.val_main_v21_apply x w1 w2 b _).trans ?_
  rw [ref_idx_reshape n k c, ref_joined_at x w1 w2 b n k c]
  by_cases h : 2 ≤ n.val + k.val ∧ n.val + k.val < 200002
  · rw [dif_pos h]
    exact ref_padded_inside x w1 w2 b _ ⟨n.val + k.val - 2, by omega⟩ c
      (by show n.val + k.val = 2 + (n.val + k.val - 2); omega) rfl
  · rw [dif_neg h]
    exact ref_padded_outside x w1 w2 b _ (by show n.val + k.val < 2 ∨ 200002 ≤ n.val + k.val; omega)

end Cert.Bridge

end
-- ==== Proof.Value.Final.lean ====
import proofs.«170995_j36653250904914_1_alg».proof.Proof.FrameIdeal.Mlp
import proofs.«170995_j36653250904914_1_alg».proof.Proof.FrameIdeal.Window
import proofs.«170995_j36653250904914_1_alg».proof.Proof.Value.WindowRows
import proofs.«170995_j36653250904914_1_alg».proof.Proof.Value.RefAt
import proofs.«170995_j36653250904914_1_alg».proof.Proof.Gen.ReferenceIdeal.Read
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.KernelIdeal

section Pieces
open Cert.ReferenceIdeal.Read (val_main_v8 val_main_v21)

/-- Both offsets of the whole-block rectangles are zero. -/
private theorem zero_offsets : (![0, 0] : Fin 2 → Nat) = fun _ => 0 := funext fun a => by fin_cases a <;> rfl

/-- The block indices of the three windows at point t: the point's own block of the padded array, the block after it,
    and the point's own block of the result, each in the one block column. -/
private theorem block_indices : ∀ t : Fin cfg1.N,
    win1_0.index t (0 : Fin 2) = t.val ∧ win1_0.index t (1 : Fin 2) = 0
    ∧ win1_1.index t (0 : Fin 2) = t.val + 1 ∧ win1_1.index t (1 : Fin 2) = 0
    ∧ win1_2.index t (0 : Fin 2) = t.val ∧ win1_2.index t (1 : Fin 2) = 0 :=
  (by decide +kernel : ∀ t : Fin grid1.N, _)

/-- Every one of the 25 columns is 5k + c with k, c < 5. -/
private theorem col_split (q : Fin 25) : ∃ k c : Fin 5, q = ⟨5 * k.val + c.val, by omega⟩ :=
  ⟨⟨q.val / 5, by omega⟩, ⟨q.val % 5, by omega⟩, Fin.ext (by show q.val = 5 * (q.val / 5) + q.val % 5; omega)⟩

section Blocks
variable (V : (c : Dev nD) → (b : Ref sig .tc) → Buf (Elt Ideal) ((c : Thread nD τ).loc b)) (c : Dev nD)

/-- Window 0's block at point t holds rows 8000 t … 8000 t + 7999 of the padded array. -/
private theorem cur_block_at (t : Fin cfg1.N) (r : Fin 8000) (q : Fin 5) :
    (Stage2.blk V c 0 t : Vec Ideal S8000x5 .f32) (ix2 r q)
      = (V c main_v1 : S208000x5.Idx → Elt Ideal .f32) (ix2 ⟨8000 * t.val + r.val, by have ht : t.val < 25 := t.isLt; omega⟩ q) := by
  obtain ⟨e0, e1, e2, e3, e4, e5⟩ := block_indices t
  unfold Stage2.blk
  rw [View.read_apply]
  show V c main_v1 _ = V c main_v1 _
  congr 1
  funext a; apply Fin.ext
  match a with
  | ⟨0, _⟩ => show win1_0.index t (0 : Fin 2) * 8000 + 1 * r.val = 8000 * t.val + r.val; omega
  | ⟨1, _⟩ => show win1_0.index t (1 : Fin 2) * 5 + 1 * q.val = q.val; omega

/-- Window 1's block at point t holds rows 8000 (t + 1) … 8000 (t + 1) + 7999 of the padded array. -/
private theorem next_block_at (t : Fin cfg1.N) (r : Fin 8000) (q : Fin 5) :
    (Stage2.blk V c 1 t : Vec Ideal S8000x5 .f32) (ix2 r q)
      = (V c main_v1 : S208000x5.Idx → Elt Ideal .f32) (ix2 ⟨8000 * (t.val + 1) + r.val, by have ht : t.val < 25 := t.isLt; omega⟩ q) := by
  obtain ⟨e0, e1, e2, e3, e4, e5⟩ := block_indices t
  unfold Stage2.blk
  rw [View.read_apply]
  show V c main_v1 _ = V c main_v1 _
  congr 1
  funext a; apply Fin.ext
  match a with
  | ⟨0, _⟩ => show win1_1.index t (0 : Fin 2) * 8000 + 1 * r.val = 8000 * (t.val + 1) + r.val; omega
  | ⟨1, _⟩ => show win1_1.index t (1 : Fin 2) * 5 + 1 * q.val = q.val; omega

/-- Entry (r, q) of window 2's block at point t sits in the result array at row 8000 t + r, column q. -/
private theorem out_block_at (t : Fin cfg1.N) (r : Fin 8000) (q : Fin 25) :
    ((cfg1.win 2).blk t).view.emb (ix2 r q)
      = ix2 (⟨8000 * t.val + r.val, by have ht : t.val < 25 := t.isLt; omega⟩ : Fin 200000) q := by
  obtain ⟨e0, e1, e2, e3, e4, e5⟩ := block_indices t
  funext a; apply Fin.ext
  match a with
  | ⟨0, _⟩ => show win1_2.index t (0 : Fin 2) * 8000 + 1 * r.val = 8000 * t.val + r.val; omega
  | ⟨1, _⟩ => show win1_2.index t (1 : Fin 2) * 25 + 1 * q.val = q.val; omega

/-- An index of the result array is in point t's block iff each coordinate is in the block's range on its axis. -/
private theorem mem_out_block (t : Fin cfg1.N) (i : S200000x25.Idx) :
    i ∈ ((cfg1.win 2).blk t).view.set
      ↔ ∀ a : Fin 2, win1_2.index t a * S8000x25.size a ≤ (i a).val ∧ (i a).val < win1_2.index t a * S8000x25.size a + S8000x25.size a := by
  show i ∈ ((View.whole main_v2).slice (win1_2.rect t)).set ↔ _
  rw [View.set_slice_whole, Rect.mem_set_unit]
  exact Iff.rfl

/-- Every index of the result array lies in the block of the point its row falls in: row n in block n / 8000. -/
private theorem covered (i : S200000x25.Idx) :
    ∃ t : Fin cfg1.N, (cfg1.win 2).flush t = true ∧ i ∈ ((cfg1.win 2).blk t).view.set := by
  have hi0 : (i 0).val < 200000 := (i 0).isLt
  have hi1 : (i 1).val < 25 := (i 1).isLt
  have hq : (i 0).val / 8000 < 25 := by omega
  obtain ⟨e0, e1, e2, e3, e4, e5⟩ := block_indices (⟨(i 0).val / 8000, hq⟩ : Fin cfg1.N)
  have e4' : win1_2.index (⟨(i 0).val / 8000, hq⟩ : Fin cfg1.N) (0 : Fin 2) = (i 0).val / 8000 := e4
  refine ⟨⟨(i 0).val / 8000, hq⟩, Gen.flush1_2 _, ?_⟩
  rw [mem_out_block]
  intro a
  match a with
  | ⟨0, _⟩ =>
    show win1_2.index (⟨(i 0).val / 8000, hq⟩ : Fin cfg1.N) (0 : Fin 2) * 8000 ≤ (i 0).val
      ∧ (i 0).val < win1_2.index (⟨(i 0).val / 8000, hq⟩ : Fin cfg1.N) (0 : Fin 2) * 8000 + 8000
    omega
  | ⟨1, _⟩ =>
    show win1_2.index (⟨(i 0).val / 8000, hq⟩ : Fin cfg1.N) (1 : Fin 2) * 25 ≤ (i 1).val
      ∧ (i 1).val < win1_2.index (⟨(i 0).val / 8000, hq⟩ : Fin cfg1.N) (1 : Fin 2) * 25 + 25
    omega

end Blocks

/-- Two rank-2 indices with equal coordinates are equal. -/
private theorem ix2_congr {n0 n1 : Nat} {a a' : Fin n0} {b b' : Fin n1} (ha : a.val = a'.val) (hb : b.val = b'.val) :
    ix2 a b = ix2 a' b' := by
  obtain rfl : a = a' := Fin.ext ha
  obtain rfl : b = b' := Fin.ext hb
  rfl

/-- The rectangle of the first four rows of a block, at zero offsets and unit strides, sends (r, c) to (r, c). -/
private theorem halo_rows (r' : Fin 4) (c : Fin 5) :
    Stage2.rHalo.idx (ix2 r' c) = ix2 (⟨r'.val, by omega⟩ : Fin 8000) c := by
  funext a; apply Fin.ext
  match a with
  | ⟨0, _⟩ => show 0 + 1 * r'.val = r'.val; omega
  | ⟨1, _⟩ => show 0 + 1 * c.val = c.val; omega

/-- One entry of the stored block, over any array A of which `cur` is rows 8000 t … and `nxt` rows 8000 (t + 1) …:
    entry (r, 5k + c) is A at row 8000 t + r + k, column c — from `cur` while r + k < 8000, and otherwise from the
    first four rows of `nxt`, which are the same rows of A. -/
private theorem stored_entry (A : S208000x5.Idx → Elt Ideal .f32) (cur nxt : Vec Ideal S8000x5 .f32) (t : Nat) (ht : t < 25)
    (hcur : ∀ (r : Fin 8000) (q : Fin 5), cur (ix2 r q) = A (ix2 ⟨8000 * t + r.val, by omega⟩ q))
    (hnxt : ∀ (r : Fin 8000) (q : Fin 5), nxt (ix2 r q) = A (ix2 ⟨8000 * (t + 1) + r.val, by omega⟩ q))
    (r : Fin 8000) (k c : Fin 5) :
    Gen.k1_pay1 cur (View.ld nxt Stage2.rHalo) (ix2 r ⟨5 * k.val + c.val, by omega⟩)
      = A (ix2 ⟨8000 * t + r.val + k.val, by omega⟩ c) := by
  refine (window_rows (F := Ideal) cur (View.ld nxt Stage2.rHalo : Vec Ideal S4x5 .f32) r k c).trans ?_
  by_cases h : r.val + k.val < 8000
  · rw [dif_pos h, hcur]
    exact congrArg A (ix2_congr (by show 8000 * t + (r.val + k.val) = 8000 * t + r.val + k.val; omega) rfl)
  · rw [dif_neg h]
    show nxt (Stage2.rHalo.idx (ix2 _ c)) = _
    rw [halo_rows, hnxt]
    exact congrArg A (ix2_congr (by show 8000 * (t + 1) + (r.val + k.val - 8000) = 8000 * t + r.val + k.val; omega) rfl)

/-- The padded hidden activations at row n + k, column c, are the reference's result at (n, 5k + c): both are the hidden
    activation at row n + k - 2 where that row exists and the padding value elsewhere. -/
private theorem padded_eq_ref (x : FVec Ideal Cert.ReferenceIdeal.S200000x320 .f32) (w1 : FVec Ideal Cert.ReferenceIdeal.S10x320 .f32)
    (w2 : FVec Ideal Cert.ReferenceIdeal.S5x10 .f32) (b : FVec Ideal Cert.ReferenceIdeal.S5 .f32)
    (n : Fin 200000) (k c : Fin 5) :
    pad S208000x5 ![2, 0] ![7998, 0] ![0, 0] (val_main_v8 (F := Ideal) x w1 w2 b)
        (sitofp .f32 (constantI S_ 32 0#32) : FVec Ideal S_ .f32) Gen.pads_S200000x5_S208000x5_279980_000 Gen.h_S_
        (ix2 (⟨n.val + k.val, by omega⟩ : Fin 208000) c)
      = val_main_v21 (F := Ideal) x w1 w2 b (ix2 n ⟨5 * k.val + c.val, by omega⟩) := by
  refine (kpad_at (F := Ideal) (val_main_v8 (F := Ideal) x w1 w2 b) (sitofp .f32 (constantI S_ 32 0#32) : FVec Ideal S_ .f32)
    (⟨n.val + k.val, by omega⟩ : Fin 208000) c).trans ?_
  refine Eq.trans ?_ (ref_at x w1 w2 b n k c).symm
  by_cases h : 2 ≤ n.val + k.val ∧ n.val + k.val < 200002
  · rw [dif_pos h] <;> rfl
  · rw [dif_neg h] <;> rfl

section Final
variable (V : (c : Dev nD) → (b : Ref sig .tc) → Buf (Elt Ideal) ((c : Thread nD τ).loc b)) (c : Dev nD)
variable (x : FVec Ideal Cert.ReferenceIdeal.S200000x320 .f32) (w1 : FVec Ideal Cert.ReferenceIdeal.S10x320 .f32)
  (w2 : FVec Ideal Cert.ReferenceIdeal.S5x10 .f32) (b : FVec Ideal Cert.ReferenceIdeal.S5 .f32)

/-- What point t writes back is block t of the reference's result. -/
private theorem flushed_eq_ref
    (hV : V c main_v1 = pad S208000x5 ![2, 0] ![7998, 0] ![0, 0] (val_main_v8 (F := Ideal) x w1 w2 b)
      (sitofp .f32 (constantI S_ 32 0#32) : FVec Ideal S_ .f32) Gen.pads_S200000x5_S208000x5_279980_000 Gen.h_S_)
    (t : Fin cfg1.N) :
    (Stage2.dat (F := Ideal) V c).flushed 2 t
      = ((cfg1.win 2).blk t).view.read (Elt Ideal) (val_main_v21 (F := Ideal) x w1 w2 b) := by
  show (cfg1.win 2).cut (grid1.coords t) ((Stage2.dat V c).after 2 t) = _
  rw [Stage2.after_2]
  unfold Stage2.stored
  rw [View.canon_unit_zero zero_offsets]
  simp only [View.ld_unit_zero (S := S8000x5) zero_offsets]
  funext j
  obtain ⟨r, q, rfl⟩ : ∃ (r : Fin 8000) (q : Fin 25), j = ix2 r q := ⟨j 0, j 1, eq_ix2 j⟩
  obtain ⟨k, d, rfl⟩ := col_split q
  obtain ⟨e0, e1, e2, e3, e4, e5⟩ := block_indices t
  have ht : t.val < 25 := t.isLt
  rw [View.read_apply]
  show Gen.k1_pay1 (Stage2.blk V c 0 t) (View.ld (Stage2.blk V c 1 t) Stage2.rHalo) (ix2 r ⟨5 * k.val + d.val, by omega⟩)
    = val_main_v21 (F := Ideal) x w1 w2 b (((cfg1.win 2).blk t).view.emb (ix2 r ⟨5 * k.val + d.val, by omega⟩))
  rw [out_block_at]
  refine (stored_entry (V c main_v1) (Stage2.blk V c 0 t) (Stage2.blk V c 1 t) t.val ht
    (cur_block_at V c t) (next_block_at V c t) r k d).trans ?_
  rw [hV]
  exact padded_eq_ref x w1 w2 b ⟨8000 * t.val + r.val, by omega⟩ k d

end Final

end Pieces

/-- The second region, entered with the padded hidden activations in its input array, leaves the reference's result in
    its output array. -/
theorem window_final (V : (c : Dev nD) → (b : Ref sig .tc) → Buf (Elt Ideal) ((c : Thread nD τ).loc b)) (c : Dev nD)
    (x : FVec Ideal Cert.ReferenceIdeal.S200000x320 .f32) (w1 : FVec Ideal Cert.ReferenceIdeal.S10x320 .f32)
    (w2 : FVec Ideal Cert.ReferenceIdeal.S5x10 .f32) (b : FVec Ideal Cert.ReferenceIdeal.S5 .f32)
    (hV : V c main_v1 = pad S208000x5 ![2, 0] ![7998, 0] ![0, 0] (Cert.ReferenceIdeal.Read.val_main_v8 (F := Ideal) x w1 w2 b)
      (sitofp .f32 (constantI S_ 32 0#32) : FVec Ideal S_ .f32) Gen.pads_S200000x5_S208000x5_279980_000 Gen.h_S_) :
    (Stage2.dat (F := Ideal) V c).arrAt 2 cfg1.N = Cert.ReferenceIdeal.Read.val_main_v21 (F := Ideal) x w1 w2 b := by
  exact (Stage2.dat (F := Ideal) V c).arrAt_eq_of_cover 2 (Cert.ReferenceIdeal.Read.val_main_v21 (F := Ideal) x w1 w2 b)
    (fun t _ => flushed_eq_ref V c x w1 w2 b hV t) covered

end Cert.Bridge

end
-- ==== Proof.lean ====
/-
  The kernel computes, in two pipelined regions, what the reference computes on the host.

  Both programs take x : [200000, 320], W1 : [10, 320], W2 : [5, 10], b2 : [5] and form the hidden activations
  t = max(max(x W1ᵀ, 0) W2ᵀ + b2, 0) : [200000, 5], then lay five row-shifted copies of t, padded with two zero rows
  on each side, side by side: out(n, 5k + c) = t(n + k - 2, c) where that row exists and the padding value elsewhere.
  The kernel's first region computes t 8000 rows at a point (the narrowing of its operands to bf16 is the identity on
  the extended reals, and a matrix-unit product into a zero accumulator is the same sum of products as the host's
  contraction); the host pads t with two rows before and 7998 after; the second region reads, at a point, a block of
  8000 padded rows and the first four rows of the next block, which together hold every row the point's five shifted
  copies need. No algebraic law beyond reading both sides entry by entry as the same sums is used, so the
  finiteness of the inputs is never opened.

  The frames of the two kernel programs are the whole run of @main (region, two host stretches, region) with every
  unscoped buffer's final contents named; the reference's frame is its run with the result dropped; the idealization
  rewrote nothing, so there is nothing to preserve.
-/
import proofs.«170995_j36653250904914_1_alg».proof.Defs
import proofs.«170995_j36653250904914_1_alg».proof.Proof.Gen.Kernel
import proofs.«170995_j36653250904914_1_alg».proof.Proof.Gen.Kernel.Skeleton
import proofs.«170995_j36653250904914_1_alg».proof.Proof.Gen.Kernel.Launch
import proofs.«170995_j36653250904914_1_alg».proof.Proof.Gen.Kernel.Regions
import proofs.«170995_j36653250904914_1_alg».proof.Proof.Gen.Kernel.Points
import proofs.«170995_j36653250904914_1_alg».proof.Proof.Gen.KernelIdeal
import proofs.«170995_j36653250904914_1_alg».proof.Proof.Gen.KernelIdeal.Skeleton
import proofs.«170995_j36653250904914_1_alg».proof.Proof.Gen.KernelIdeal.Launch
import proofs.«170995_j36653250904914_1_alg».proof.Proof.Gen.KernelIdeal.Regions
import proofs.«170995_j36653250904914_1_alg».proof.Proof.Gen.KernelIdeal.Points
import proofs.«170995_j36653250904914_1_alg».proof.Proof.Gen.ReferenceIdeal
import proofs.«170995_j36653250904914_1_alg».proof.Proof.Gen.ReferenceIdeal.Run
import proofs.«170995_j36653250904914_1_alg».proof.Proof.Gen.ReferenceIdeal.Read
import proofs.«170995_j36653250904914_1_alg».proof.Proof.Gen.Pre_finite_inputs
import proofs.«170995_j36653250904914_1_alg».proof.Proof.FrameBits.Run
import proofs.«170995_j36653250904914_1_alg».proof.Proof.FrameIdeal.Run
import proofs.«170995_j36653250904914_1_alg».proof.Proof.Value.Hidden
import proofs.«170995_j36653250904914_1_alg».proof.Proof.Value.Final
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Whole.frame_all (F := Bits) m ρ

/-- So does the kernel read over the extended reals. -/
theorem frame_kernelIdeal : Cert.frame_KernelIdeal := fun m ρ _ => Cert.KernelIdeal.Whole.frame_all (F := Ideal) m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Whole in
/-- The kernel's result buffer at the end of its run, over the extended reals, is the reference's result as a function
    of the launch memory's arguments: the first region leaves the hidden activations, the host pads them, and the
    second region lays the shifted copies side by side. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    B4 (F := Ideal) m ρ c (Proc.devRef .tc main_v2)
      = Cert.ReferenceIdeal.Read.val_main_v21 (F := Ideal) (m ((c.tc : Thread nD τ).loc main_arg0)) (m ((c.tc : Thread nD τ).loc main_arg1))
          (m ((c.tc : Thread nD τ).loc main_arg2)) (m ((c.tc : Thread nD τ).loc main_arg3)) := by
  rw [B4_out]
  refine Cert.Bridge.window_final (E3 m ρ) c _ _ _ _ ?_
  rw [entry1_padded, after0_hidden, Cert.Bridge.hidden_final (E0 m ρ) c]

/-- From memories that agree on the arguments both programs run to the end with the same result, entry by entry, and
    their arguments unchanged. -/
theorem algebraic : Cert.algebraic_KernelIdeal_ReferenceIdeal := by
  intro m ρ m' ρ' _ hagree
  refine ⟨fun c => Cert.KernelIdeal.Whole.B4 (F := Ideal) m ρ c (Proc.devRef .tc Cert.KernelIdeal.main_v2), ?_, ?_⟩
  · refine (θ_run Cert.KernelIdeal.defs _ _).mono (fun r h c => ?_) (Cert.KernelIdeal.Whole.run_all (F := Ideal) m ρ)
    exact ⟨h c _ (Cert.KernelIdeal.Whole.mem_uc Cert.KernelIdeal.main_v2 (by decide)),
      (h c _ (Cert.KernelIdeal.Whole.mem_uc Cert.KernelIdeal.main_arg0 (by decide))).trans (Cert.KernelIdeal.Whole.end_main_arg0 m ρ c),
      (h c _ (Cert.KernelIdeal.Whole.mem_uc Cert.KernelIdeal.main_arg1 (by decide))).trans (Cert.KernelIdeal.Whole.end_main_arg1 m ρ c),
      (h c _ (Cert.KernelIdeal.Whole.mem_uc Cert.KernelIdeal.main_arg2 (by decide))).trans (Cert.KernelIdeal.Whole.end_main_arg2 m ρ c),
      (h c _ (Cert.KernelIdeal.Whole.mem_uc Cert.KernelIdeal.main_arg3 (by decide))).trans (Cert.KernelIdeal.Whole.end_main_arg3 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2]
    exact (kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
